-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S2x10240000 : Shape := ⟨2, ![2, 10240000]⟩
abbrev S128x10 : Shape := ⟨2, ![128, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S10x1 .f32) (main_arg9 : FVec F S1 .f32) (main_v33 : IVec S_ 1) : IVec S_ 1 :=
  let main_v34 : FVec F S10x1 .f32 := Host.absf main_arg8
  let main_cst_12 : FVec F S_ .f32 := constant S_ .f32 0x7F800000#32
  let main_v35 : FVec F S10x1 .f32 := broadcastInDim S10x1 ![] bcast_S_S10x1 main_cst_12
  let main_v36 : IVec S10x1 1 := cmpf .olt main_v34 main_v35
  let main_c_13 : IVec S_ 1 := constantI S_ 1 1#1
  let main_v37 : IVec S_ 1 := (fun x v => Host.reduce IntOp.andi x v reducesTo_S10x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S10 .f32) (main_arg6 : FVec F S10x10 .f32) (main_arg7 : FVec F S10 .f32) (main_arg8 : FVec F S10x1 .f32) (main_arg9 : FVec F S1 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg6
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg8 main_arg9 main_v33

def fn {F : FTy → Type} [FloatOps F] (main_arg0 : FVec F S320000x128 .f32) (main_arg1 : IVec S2x10240000 32) (main_arg2 : FVec F S128x10 .f32) (main_arg3 : FVec F S10 .f32) (main_arg4 : FVec F S10x10 .f32) (main_arg5 : FVec F S10 .f32) (main_arg6 : FVec F S10x10 .f32) (main_arg7 : FVec F S10 .f32) (main_arg8 : FVec F S10x1 .f32) (main_arg9 : FVec F S1 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S128x10 .f32 := Host.absf main_arg2
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x10 .f32 := Host.absf main_arg4
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg5 main_arg6 main_arg7 main_arg8 main_arg9 main_v13 main_v16
-- ==== Kernel.lean ====
abbrev S320000x128 : Shape := ⟨2, ![320000, 128]⟩
abbrev S2x10240000 : Shape := ⟨2, ![2, 10240000]⟩
abbrev S128x10 : Shape := ⟨2, ![128, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x10240000 : Shape := ⟨2, ![1, 10240000]⟩
abbrev S10240000 : Shape := ⟨1, ![10240000]⟩
abbrev S_ : Shape := ⟨0, ![]⟩
abbrev S320000 : Shape := ⟨1, ![320000]⟩
abbrev S10240000x1 : Shape := ⟨2, ![10240000, 1]⟩
abbrev S320000x1 : Shape := ⟨2, ![320000, 1]⟩
abbrev S1x10 : Shape := ⟨2, ![1, 10]⟩
abbrev S320000x10 : Shape := ⟨2, ![320000, 10]⟩
abbrev S8000x128 : Shape := ⟨2, ![8000, 128]⟩
abbrev S8000x10 : Shape := ⟨2, ![8000, 10]⟩
abbrev S10240000x10 : Shape := ⟨2, ![10240000, 10]⟩
abbrev S8000x1 : Shape := ⟨2, ![8000, 1]⟩
abbrev S4000x10 : Shape := ⟨2, ![4000, 10]⟩
abbrev S4000x1 : Shape := ⟨2, ![4000, 1]⟩
abbrev S1x1 : Shape := ⟨2, ![1, 1]⟩
abbrev S16x20000x1 : Shape := ⟨3, ![16, 20000, 1]⟩

abbrev nBuf : Space → Nat
  | .hbm => 95
  | .vmem => 54
  | .smem => 0
  | _ => 0

abbrev bufTy : (tb : Table) → Fin (tcTables nBuf tb) → BufTy
  | .hbm, ⟨0, _⟩ => ⟨S320000x128, .f32⟩
  | .hbm, ⟨1, _⟩ => ⟨S2x10240000, .i32⟩
  | .hbm, ⟨2, _⟩ => ⟨S128x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S10x1, .f32⟩
  | .hbm, ⟨9, _⟩ => ⟨S1, .f32⟩
  | .hbm, ⟨10, _⟩ => ⟨S1x10240000, .i32⟩
  | .hbm, ⟨11, _⟩ => ⟨S10240000, .i32⟩
  | .hbm, ⟨12, _⟩ => ⟨S1x10240000, .i32⟩
  | .hbm, ⟨13, _⟩ => ⟨S10240000, .i32⟩
  | .hbm, ⟨14, _⟩ => ⟨S_, .f32⟩
  | .hbm, ⟨15, _⟩ => ⟨S10240000, .f32⟩
  | .hbm, ⟨16, _⟩ => ⟨S_, .f32⟩
  | .hbm, ⟨17, _⟩ => ⟨S320000, .f32⟩
  | .hbm, ⟨18, _⟩ => ⟨S10240000x1, .i32⟩
  | .hbm, ⟨19, _⟩ => ⟨S320000, .f32⟩
  | .hbm, ⟨20, _⟩ => ⟨S_, .f32⟩
  | .hbm, ⟨21, _⟩ => ⟨S320000, .f32⟩
  | .hbm, ⟨22, _⟩ => ⟨S320000, .f32⟩
  | .hbm, ⟨23, _⟩ => ⟨S320000, .f32⟩
  | .hbm, ⟨24, _⟩ => ⟨S_, .f32⟩
  | .hbm, ⟨25, _⟩ => ⟨S320000, .f32⟩
  | .hbm, ⟨26, _⟩ => ⟨S320000, .f32⟩
  | .hbm, ⟨27, _⟩ => ⟨S320000, .f32⟩
  | .hbm, ⟨28, _⟩ => ⟨S320000x1, .f32⟩
  | .hbm, ⟨29, _⟩ => ⟨S_, .i32⟩
  | .hbm, ⟨30, _⟩ => ⟨S10240000, .i32⟩
  | .hbm, ⟨31, _⟩ => ⟨S10240000, .i1⟩
  | .hbm, ⟨32, _⟩ => ⟨S_, .i32⟩
  | .hbm, ⟨33, _⟩ => ⟨S10240000, .i32⟩
  | .hbm, ⟨34, _⟩ => ⟨S10240000, .i32⟩
  | .hbm, ⟨35, _⟩ => ⟨S10240000, .i32⟩
  | .hbm, ⟨36, _⟩ => ⟨S10240000x1, .i32⟩
  | .hbm, ⟨37, _⟩ => ⟨S10240000, .f32⟩
  | .hbm, ⟨38, _⟩ => ⟨S_, .i32⟩
  | .hbm, ⟨39, _⟩ => ⟨S10240000, .i32⟩
  | .hbm, ⟨40, _⟩ => ⟨S10240000, .i1⟩
  | .hbm, ⟨41, _⟩ => ⟨S_, .i32⟩
  | .hbm, ⟨42, _⟩ => ⟨S10240000, .i32⟩
  | .hbm, ⟨43, _⟩ => ⟨S10240000, .i32⟩
  | .hbm, ⟨44, _⟩ => ⟨S10240000, .i32⟩
  | .hbm, ⟨45, _⟩ => ⟨S10240000x1, .i32⟩
  | .hbm, ⟨46, _⟩ => ⟨S10240000, .f32⟩
  | .hbm, ⟨47, _⟩ => ⟨S10240000, .f32⟩
  | .hbm, ⟨48, _⟩ => ⟨S1x10, .f32⟩
  | .hbm, ⟨49, _⟩ => ⟨S320000x10, .f32⟩
  | .hbm, ⟨50, _⟩ => ⟨S_, .f32⟩
  | .hbm, ⟨51, _⟩ => ⟨S10, .f32⟩
  | .hbm, ⟨52, _⟩ => ⟨S1x10, .f32⟩
  | .hbm, ⟨53, _⟩ => ⟨S320000x10, .f32⟩
  | .hbm, ⟨54, _⟩ => ⟨S_, .i32⟩
  | .hbm, ⟨55, _⟩ => ⟨S10240000, .i32⟩
  | .hbm, ⟨56, _⟩ => ⟨S10240000, .i1⟩
  | .hbm, ⟨57, _⟩ => ⟨S_, .i32⟩
  | .hbm, ⟨58, _⟩ => ⟨S10240000, .i32⟩
  | .hbm, ⟨59, _⟩ => ⟨S10240000, .i32⟩
  | .hbm, ⟨60, _⟩ => ⟨S10240000, .i32⟩
  | .hbm, ⟨61, _⟩ => ⟨S10240000x1, .i32⟩
  | .hbm, ⟨62, _⟩ => ⟨S10240000x10, .f32⟩
  | .hbm, ⟨63, _⟩ => ⟨S10240000x1, .f32⟩
  | .hbm, ⟨64, _⟩ => ⟨S10240000x10, .f32⟩
  | .hbm, ⟨65, _⟩ => ⟨S_, .f32⟩
  | .hbm, ⟨66, _⟩ => ⟨S320000x10, .f32⟩
  | .hbm, ⟨67, _⟩ => ⟨S10240000x1, .i32⟩
  | .hbm, ⟨68, _⟩ => ⟨S320000x10, .f32⟩
  | .hbm, ⟨69, _⟩ => ⟨S1x10, .f32⟩
  | .hbm, ⟨70, _⟩ => ⟨S320000x10, .f32⟩
  | .hbm, ⟨71, _⟩ => ⟨S_, .f32⟩
  | .hbm, ⟨72, _⟩ => ⟨S10, .f32⟩
  | .hbm, ⟨73, _⟩ => ⟨S1x10, .f32⟩
  | .hbm, ⟨74, _⟩ => ⟨S320000x10, .f32⟩
  | .hbm, ⟨75, _⟩ => ⟨S_, .i32⟩
  | .hbm, ⟨76, _⟩ => ⟨S10240000, .i32⟩
  | .hbm, ⟨77, _⟩ => ⟨S10240000, .i1⟩
  | .hbm, ⟨78, _⟩ => ⟨S_, .i32⟩
  | .hbm, ⟨79, _⟩ => ⟨S10240000, .i32⟩
  | .hbm, ⟨80, _⟩ => ⟨S10240000, .i32⟩
  | .hbm, ⟨81, _⟩ => ⟨S10240000, .i32⟩
  | .hbm, ⟨82, _⟩ => ⟨S10240000x1, .i32⟩
  | .hbm, ⟨83, _⟩ => ⟨S10240000x10, .f32⟩
  | .hbm, ⟨84, _⟩ => ⟨S10240000x1, .f32⟩
  | .hbm, ⟨85, _⟩ => ⟨S10240000x10, .f32⟩
  | .hbm, ⟨86, _⟩ => ⟨S_, .f32⟩
  | .hbm, ⟨87, _⟩ => ⟨S320000x10, .f32⟩
  | .hbm, ⟨88, _⟩ => ⟨S10240000x1, .i32⟩
  | .hbm, ⟨89, _⟩ => ⟨S320000x10, .f32⟩
  | .hbm, ⟨90, _⟩ => ⟨S1x10, .f32⟩
  | .hbm, ⟨91, _⟩ => ⟨S320000x10, .f32⟩
  | .hbm, ⟨92, _⟩ => ⟨S1x1, .f32⟩
  | .hbm, ⟨93, _⟩ => ⟨S320000x1, .f32⟩
  | .hbm, ⟨94, _⟩ => ⟨S16x20000x1, .f32⟩
  | .local _ .vmem, ⟨0, _⟩ => ⟨S8000x128, .f32⟩
  | .local _ .vmem, ⟨1, _⟩ => ⟨S8000x128, .f32⟩
  | .local _ .vmem, ⟨2, _⟩ => ⟨S128x10, .f32⟩
  | .local _ .vmem, ⟨3, _⟩ => ⟨S1x10, .f32⟩
  | .local _ .vmem, ⟨4, _⟩ => ⟨S8000x10, .f32⟩
  | .local _ .vmem, ⟨5, _⟩ => ⟨S8000x10, .f32⟩
  | .local _ .vmem, ⟨6, _⟩ => ⟨S8000x10, .f32⟩
  | .local _ .vmem, ⟨7, _⟩ => ⟨S8000x10, .f32⟩
  | .local _ .vmem, ⟨8, _⟩ => ⟨S10x10, .f32⟩
  | .local _ .vmem, ⟨9, _⟩ => ⟨S1x10, .f32⟩
  | .local _ .vmem, ⟨10, _⟩ => ⟨S8000x10, .f32⟩
  | .local _ .vmem, ⟨11, _⟩ => ⟨S8000x10, .f32⟩
  | .local _ .vmem, ⟨12, _⟩ => ⟨S8000x1, .f32⟩
  | .local _ .vmem, ⟨13, _⟩ => ⟨S8000x1, .f32⟩
  | .local _ .vmem, ⟨14, _⟩ => ⟨S8000x10, .f32⟩
  | .local _ .vmem, ⟨15, _⟩ => ⟨S8000x10, .f32⟩
  | .local _ .vmem, ⟨16, _⟩ => ⟨S8000x10, .f32⟩
  | .local _ .vmem, ⟨17, _⟩ => ⟨S8000x10, .f32⟩
  | .local _ .vmem, ⟨18, _⟩ => ⟨S4000x10, .f32⟩
  | .local _ .vmem, ⟨19, _⟩ => ⟨S4000x10, .f32⟩
  | .local _ .vmem, ⟨20, _⟩ => ⟨S4000x10, .f32⟩
  | .local _ .vmem, ⟨21, _⟩ => ⟨S4000x10, .f32⟩
  | .local _ .vmem, ⟨22, _⟩ => ⟨S4000x1, .f32⟩
  | .local _ .vmem, ⟨23, _⟩ => ⟨S4000x1, .f32⟩
  | .local _ .vmem, ⟨24, _⟩ => ⟨S1x10, .f32⟩
  | .local _ .vmem, ⟨25, _⟩ => ⟨S4000x10, .f32⟩
  | .local _ .vmem, ⟨26, _⟩ => ⟨S4000x10, .f32⟩
  | .local _ .vmem, ⟨27, _⟩ => ⟨S8000x10, .f32⟩
  | .local _ .vmem, ⟨28, _⟩ => ⟨S8000x10, .f32⟩
  | .local _ .vmem, ⟨29, _⟩ => ⟨S10x10, .f32⟩
  | .local _ .vmem, ⟨30, _⟩ => ⟨S1x10, .f32⟩
  | .local _ .vmem, ⟨31, _⟩ => ⟨S8000x10, .f32⟩
  | .local _ .vmem, ⟨32, _⟩ => ⟨S8000x10, .f32⟩
  | .local _ .vmem, ⟨33, _⟩ => ⟨S8000x1, .f32⟩
  | .local _ .vmem, ⟨34, _⟩ => ⟨S8000x1, .f32⟩
  | .local _ .vmem, ⟨35, _⟩ => ⟨S8000x10, .f32⟩
  | .local _ .vmem, ⟨36, _⟩ => ⟨S8000x10, .f32⟩
  | .local _ .vmem, ⟨37, _⟩ => ⟨S8000x10, .f32⟩
  | .local _ .vmem, ⟨38, _⟩ => ⟨S8000x10, .f32⟩
  | .local _ .vmem, ⟨39, _⟩ => ⟨S4000x10, .f32⟩
  | .local _ .vmem, ⟨40, _⟩ => ⟨S4000x10, .f32⟩
  | .local _ .vmem, ⟨41, _⟩ => ⟨S4000x10, .f32⟩
  | .local _ .vmem, ⟨42, _⟩ => ⟨S4000x10, .f32⟩
  | .local _ .vmem, ⟨43, _⟩ => ⟨S4000x1, .f32⟩
  | .local _ .vmem, ⟨44, _⟩ => ⟨S4000x1, .f32⟩
  | .local _ .vmem, ⟨45, _⟩ => ⟨S1x10, .f32⟩
  | .local _ .vmem, ⟨46, _⟩ => ⟨S4000x10, .f32⟩
  | .local _ .vmem, ⟨47, _⟩ => ⟨S4000x10, .f32⟩
  | .local _ .vmem, ⟨48, _⟩ => ⟨S8000x10, .f32⟩
  | .local _ .vmem, ⟨49, _⟩ => ⟨S8000x10, .f32⟩
  | .local _ .vmem, ⟨50, _⟩ => ⟨S10x1, .f32⟩
  | .local _ .vmem, ⟨51, _⟩ => ⟨S1x1, .f32⟩
  | .local _ .vmem, ⟨52, _⟩ => ⟨S8000x1, .f32⟩
  | .local _ .vmem, ⟨53, _⟩ => ⟨S8000x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1280], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1280], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x10 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x10 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x10 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x10 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x10240000_S1x10240000_0_0 : S2x10240000.Slices ![0, 0] S1x10240000
  shapeCasts_S1x10240000_S10240000 : S1x10240000.ShapeCasts S10240000
  slices_S2x10240000_S1x10240000_1_0 : S2x10240000.Slices ![1, 0] S1x10240000
  bcast_S_S10240000 : S_.BroadcastsInDim S10240000 (![] : Fin 0 → Fin S10240000.rank)
  bcast_S_S320000 : S_.BroadcastsInDim S320000 (![] : Fin 0 → Fin S320000.rank)
  bcast_S10240000_S10240000x1_0 : S10240000.BroadcastsInDim S10240000x1 (![0] : Fin 1 → Fin S10240000x1.rank)
  shapeCasts_S320000_S320000x1 : S320000.ShapeCasts S320000x1
  shapeCasts_S10_S1x10 : S10.ShapeCasts S1x10
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8000x10 : S1x10.Broadcasts S8000x10
  inb_S8000x10_S8000x10_0_0 : ∀ a, (![0, 0] : Fin 2 → Nat) a + S8000x10.size a ≤ S8000x10.size a
  h_S8000x10 : 0 < S8000x10.numel
  bcast_S_S10 : S_.BroadcastsInDim S10 (![] : Fin 0 → Fin S10.rank)
  shapeCasts_S8000x10_S8000x10 : S8000x10.ShapeCasts S8000x10
  inb_S10x10_S10x10_0_0 : ∀ a, (![0, 0] : Fin 2 → Nat) a + S10x10.size a ≤ S10x10.size a
  h_S10x10 : 0 < S10x10.numel
  shapeCasts_S10240000_S10240000x1 : S10240000.ShapeCasts S10240000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x10 : S8000x1.Broadcasts S8000x10
  bcast_S_S320000x10 : S_.BroadcastsInDim S320000x10 (![] : Fin 0 → Fin S320000x10.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x10 : S4000x1.Broadcasts S4000x10
  broadcasts_S1x10_S4000x10 : S1x10.Broadcasts S4000x10
  inb_S4000x10_S4000x10_0_0 : ∀ a, (![0, 0] : Fin 2 → Nat) a + S4000x10.size a ≤ S4000x10.size a
  h_S4000x10 : 0 < S4000x10.numel
  shapeCasts_S4000x10_S4000x10 : S4000x10.ShapeCasts S4000x10
  shapeCasts_S1_S1x1 : S1.ShapeCasts S1x1
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  shapeCasts_S320000x1_S16x20000x1 : S320000x1.ShapeCasts S16x20000x1
  scatter_S320000_S10240000x1_S10240000_n_0_0_1_wf : ScatterDims.WF S320000 S10240000x1 S10240000 [] [0] [0] 1
  gather_S320000_S10240000x1_S10240000_n_0_n_n_0_1_1_wf : GatherDims.WF S320000 S10240000x1 S10240000 [] [0] [] [0] [] 1 ![1]
  dot_S8000x128_S128x10_S8000x10_1_0_0_1_n_n_wf : DotDims.WF S8000x128 S128x10 S8000x10 [1] [0] [0] [1] [] []
  dot_S8000x10_S10x10_S8000x10_1_0_0_1_n_n_wf : DotDims.WF S8000x10 S10x10 S8000x10 [1] [0] [0] [1] [] []
  gather_S320000x10_S10240000x1_S10240000x10_1_0_n_n_0_1_110_wf : GatherDims.WF S320000x10 S10240000x1 S10240000x10 [1] [0] [] [0] [] 1 ![1, 10]
  scatter_S320000x10_S10240000x1_S10240000x10_1_0_0_1_wf : ScatterDims.WF S320000x10 S10240000x1 S10240000x10 [1] [0] [0] 1
  dot_S8000x10_S10x1_S8000x1_1_0_0_1_n_n_wf : DotDims.WF S8000x10 S10x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S320000x128.size a
  hwx0_0 : ∀ i : grid0.Coords, EltTy.bits .f32 = 32 ∨ (Rect.block (s := S320000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x10.size a ≤ S320000x10.size a
  hwx0_3 : ∀ i : grid0.Coords, EltTy.bits .f32 = 32 ∨ (Rect.block (s := S320000x10) S8000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x10.size a ≤ S320000x10.size a
  hwx1_0 : ∀ i : grid1.Coords, EltTy.bits .f32 = 32 ∨ (Rect.block (s := S320000x10) S8000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x10.size a ≤ S10x10.size a
  hwx1_1 : ∀ i : grid1.Coords, EltTy.bits .f32 = 32 ∨ (Rect.block (s := S10x10) S10x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x10.size a ≤ S320000x10.size a
  hwx1_3 : ∀ i : grid1.Coords, EltTy.bits .f32 = 32 ∨ (Rect.block (s := S320000x10) S8000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S10240000x1.size a
  hwx2_0 : ∀ i : grid2.Coords, EltTy.bits .f32 = 32 ∨ (Rect.block (s := S10240000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x10.size a ≤ S10240000x10.size a
  hwx2_1 : ∀ i : grid2.Coords, EltTy.bits .f32 = 32 ∨ (Rect.block (s := S10240000x10) S8000x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x10.size a ≤ S10240000x10.size a
  hwx2_2 : ∀ i : grid2.Coords, EltTy.bits .f32 = 32 ∨ (Rect.block (s := S10240000x10) S8000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x10.size a ≤ S320000x10.size a
  hwx3_0 : ∀ i : grid3.Coords, EltTy.bits .f32 = 32 ∨ (Rect.block (s := S320000x10) S4000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x10.size a ≤ S320000x10.size a
  hwx3_1 : ∀ i : grid3.Coords, EltTy.bits .f32 = 32 ∨ (Rect.block (s := S320000x10) S4000x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S320000x1.size a
  hwx3_2 : ∀ i : grid3.Coords, EltTy.bits .f32 = 32 ∨ (Rect.block (s := S320000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x10.size a ≤ S320000x10.size a
  hwx3_4 : ∀ i : grid3.Coords, EltTy.bits .f32 = 32 ∨ (Rect.block (s := S320000x10) S4000x10.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x10.size a ≤ S320000x10.size a
  hwx4_0 : ∀ i : grid4.Coords, EltTy.bits .f32 = 32 ∨ (Rect.block (s := S320000x10) S8000x10.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x10.size a ≤ S10x10.size a
  hwx4_1 : ∀ i : grid4.Coords, EltTy.bits .f32 = 32 ∨ (Rect.block (s := S10x10) S10x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x10.size a ≤ S320000x10.size a
  hwx4_3 : ∀ i : grid4.Coords, EltTy.bits .f32 = 32 ∨ (Rect.block (s := S320000x10) S8000x10.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x1.size a ≤ S10240000x1.size a
  hwx5_0 : ∀ i : grid5.Coords, EltTy.bits .f32 = 32 ∨ (Rect.block (s := S10240000x1) S8000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x10.size a ≤ S10240000x10.size a
  hwx5_1 : ∀ i : grid5.Coords, EltTy.bits .f32 = 32 ∨ (Rect.block (s := S10240000x10) S8000x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x10.size a ≤ S10240000x10.size a
  hwx5_2 : ∀ i : grid5.Coords, EltTy.bits .f32 = 32 ∨ (Rect.block (s := S10240000x10) S8000x10.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x10.size a ≤ S320000x10.size a
  hwx6_0 : ∀ i : grid6.Coords, EltTy.bits .f32 = 32 ∨ (Rect.block (s := S320000x10) S4000x10.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x10.size a ≤ S320000x10.size a
  hwx6_1 : ∀ i : grid6.Coords, EltTy.bits .f32 = 32 ∨ (Rect.block (s := S320000x10) S4000x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S320000x1.size a
  hwx6_2 : ∀ i : grid6.Coords, EltTy.bits .f32 = 32 ∨ (Rect.block (s := S320000x1) S4000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x10.size a ≤ S1x10.size a
  hwx6_3 : ∀ i : grid6.Coords, EltTy.bits .f32 = 32 ∨ (Rect.block (s := S1x10) S1x10.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x10.size a ≤ S320000x10.size a
  hwx6_4 : ∀ i : grid6.Coords, EltTy.bits .f32 = 32 ∨ (Rect.block (s := S320000x10) S4000x10.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x10.size a ≤ S320000x10.size a
  hwx7_0 : ∀ i : grid7.Coords, EltTy.bits .f32 = 32 ∨ (Rect.block (s := S320000x10) S8000x10.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10x1.size a ≤ S10x1.size a
  hwx7_1 : ∀ i : grid7.Coords, EltTy.bits .f32 = 32 ∨ (Rect.block (s := S10x1) S10x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x1.size a ≤ S320000x1.size a
  hwx7_3 : ∀ i : grid7.Coords, EltTy.bits .f32 = 32 ∨ (Rect.block (s := S320000x1) S8000x1.size (cc7_transform_3 i) (hinb7_3 i)).WholeWords (EltTy.packing .f32)

variable [Facts₀]

def scatter_S320000_S10240000x1_S10240000_n_0_0_1 : ScatterDims S320000 S10240000x1 S10240000 where
  updateWindowDims := []
  insertedWindowDims := [0]
  scatterDimsToOperandDims := [0]
  indexVectorDim := 1
  wf := scatter_S320000_S10240000x1_S10240000_n_0_0_1_wf
def gather_S320000_S10240000x1_S10240000_n_0_n_n_0_1_1 : GatherDims S320000 S10240000x1 S10240000 where
  offsetDims := []
  collapsedSliceDims := [0]
  operandBatchingDims := []
  startIndicesBatchingDims := []
  startIndexMap := [0]
  indexVectorDim := 1
  sliceSizes := ![1]
  wf := gather_S320000_S10240000x1_S10240000_n_0_n_n_0_1_1_wf
def dot_S8000x128_S128x10_S8000x10_1_0_0_1_n_n : DotDims S8000x128 S128x10 S8000x10 where
  lhsContracting := [1]
  rhsContracting := [0]
  lhsNonContracting := [0]
  rhsNonContracting := [1]
  lhsBatch := []
  rhsBatch := []
  wf := dot_S8000x128_S128x10_S8000x10_1_0_0_1_n_n_wf
def dot_S8000x10_S10x10_S8000x10_1_0_0_1_n_n : DotDims S8000x10 S10x10 S8000x10 where
  lhsContracting := [1]
  rhsContracting := [0]
  lhsNonContracting := [0]
  rhsNonContracting := [1]
  lhsBatch := []
  rhsBatch := []
  wf := dot_S8000x10_S10x10_S8000x10_1_0_0_1_n_n_wf
def gather_S320000x10_S10240000x1_S10240000x10_1_0_n_n_0_1_110 : GatherDims S320000x10 S10240000x1 S10240000x10 where
  offsetDims := [1]
  collapsedSliceDims := [0]
  operandBatchingDims := []
  startIndicesBatchingDims := []
  startIndexMap := [0]
  indexVectorDim := 1
  sliceSizes := ![1, 10]
  wf := gather_S320000x10_S10240000x1_S10240000x10_1_0_n_n_0_1_110_wf
def scatter_S320000x10_S10240000x1_S10240000x10_1_0_0_1 : ScatterDims S320000x10 S10240000x1 S10240000x10 where
  updateWindowDims := [1]
  insertedWindowDims := [0]
  scatterDimsToOperandDims := [0]
  indexVectorDim := 1
  wf := scatter_S320000x10_S10240000x1_S10240000x10_1_0_0_1_wf
def dot_S8000x10_S10x1_S8000x1_1_0_0_1_n_n : DotDims S8000x10 S10x1 S8000x1 where
  lhsContracting := [1]
  rhsContracting := [0]
  lhsNonContracting := [0]
  rhsNonContracting := [1]
  lhsBatch := []
  rhsBatch := []
  wf := dot_S8000x10_S10x1_S8000x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S8000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S8000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S8000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S8000x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S8000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S4000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S4000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S4000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v48) S8000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S10x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S8000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v59) S8000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S8000x10.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S8000x10.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S4000x10.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51) S4000x10.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v14) S4000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v64) S1x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S4000x10.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v65) S8000x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S10x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v66) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v67) S8000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S320000x128 : Shape := ⟨2, ![320000, 128]⟩
abbrev S2x10240000 : Shape := ⟨2, ![2, 10240000]⟩
abbrev S128x10 : Shape := ⟨2, ![128, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x10240000 : Shape := ⟨2, ![1, 10240000]⟩
abbrev S10240000 : Shape := ⟨1, ![10240000]⟩
abbrev S_ : Shape := ⟨0, ![]⟩
abbrev S320000 : Shape := ⟨1, ![320000]⟩
abbrev S10240000x1 : Shape := ⟨2, ![10240000, 1]⟩
abbrev S320000x10 : Shape := ⟨2, ![320000, 10]⟩
abbrev S1x10 : Shape := ⟨2, ![1, 10]⟩
abbrev S10240000x10 : Shape := ⟨2, ![10240000, 10]⟩
abbrev S320000x1 : Shape := ⟨2, ![320000, 1]⟩
abbrev S1x1 : Shape := ⟨2, ![1, 1]⟩
abbrev S16x20000x1 : Shape := ⟨3, ![16, 20000, 1]⟩

abbrev nBuf : Space → Nat
  | .hbm => 136
  | .vmem => 0
  | .smem => 0
  | _ => 0

abbrev hbmTy0_0 (i : Nat) : BufTy := match i % 128 with
  | 0 => ⟨S320000x128, .f32⟩
  | 1 => ⟨S2x10240000, .i32⟩
  | 2 => ⟨S128x10, .f32⟩
  | 3 => ⟨S10, .f32⟩
  | 4 => ⟨S10x10, .f32⟩
  | 5 => ⟨S10, .f32⟩
  | 6 => ⟨S10x10, .f32⟩
  | 7 => ⟨S10, .f32⟩
  | 8 => ⟨S10x1, .f32⟩
  | 9 => ⟨S1, .f32⟩
  | 10 => ⟨S1x10240000, .i32⟩
  | 11 => ⟨S10240000, .i32⟩
  | 12 => ⟨S1x10240000, .i32⟩
  | 13 => ⟨S10240000, .i32⟩
  | 14 => ⟨S_, .f32⟩
  | 15 => ⟨S10240000, .f32⟩
  | 16 => ⟨S_, .f32⟩
  | 17 => ⟨S320000, .f32⟩
  | 18 => ⟨S10240000x1, .i32⟩
  | 19 => ⟨S320000, .f32⟩
  | 20 => ⟨S_, .f32⟩
  | 21 => ⟨S320000, .f32⟩
  | 22 => ⟨S320000, .f32⟩
  | 23 => ⟨S320000, .f32⟩
  | 24 => ⟨S320000x10, .f32⟩
  | 25 => ⟨S1x10, .f32⟩
  | 26 => ⟨S320000x10, .f32⟩
  | 27 => ⟨S320000x10, .f32⟩
  | 28 => ⟨S_, .f32⟩
  | 29 => ⟨S320000x10, .f32⟩
  | 30 => ⟨S320000x10, .f32⟩
  | 31 => ⟨S320000x10, .f32⟩
  | 32 => ⟨S_, .i32⟩
  | 33 => ⟨S10240000, .i32⟩
  | 34 => ⟨S10240000, .i1⟩
  | 35 => ⟨S_, .i32⟩
  | 36 => ⟨S10240000, .i32⟩
  | 37 => ⟨S10240000, .i32⟩
  | 38 => ⟨S10240000, .i32⟩
  | 39 => ⟨S10240000x1, .i32⟩
  | 40 => ⟨S10240000, .f32⟩
  | 41 => ⟨S_, .i32⟩
  | 42 => ⟨S10240000, .i32⟩
  | 43 => ⟨S10240000, .i1⟩
  | 44 => ⟨S_, .i32⟩
  | 45 => ⟨S10240000, .i32⟩
  | 46 => ⟨S10240000, .i32⟩
  | 47 => ⟨S10240000, .i32⟩
  | 48 => ⟨S10240000x1, .i32⟩
  | 49 => ⟨S10240000, .f32⟩
  | 50 => ⟨S10240000, .f32⟩
  | 51 => ⟨S10240000x1, .f32⟩
  | 52 => ⟨S_, .i32⟩
  | 53 => ⟨S10240000, .i32⟩
  | 54 => ⟨S10240000, .i1⟩
  | 55 => ⟨S_, .i32⟩
  | 56 => ⟨S10240000, .i32⟩
  | 57 => ⟨S10240000, .i32⟩
  | 58 => ⟨S10240000, .i32⟩
  | 59 => ⟨S10240000x1, .i32⟩
  | 60 => ⟨S10240000x10, .f32⟩
  | 61 => ⟨S10240000x10, .f32⟩
  | 62 => ⟨S10240000x10, .f32⟩
  | 63 => ⟨S_, .f32⟩
  | 64 => ⟨S320000x10, .f32⟩
  | 65 => ⟨S10240000x1, .i32⟩
  | 66 => ⟨S320000x10, .f32⟩
  | 67 => ⟨S_, .f32⟩
  | 68 => ⟨S320000, .f32⟩
  | 69 => ⟨S320000, .f32⟩
  | 70 => ⟨S320000, .f32⟩
  | 71 => ⟨S320000x1, .f32⟩
  | 72 => ⟨S320000x10, .f32⟩
  | 73 => ⟨S320000x10, .f32⟩
  | 74 => ⟨S320000x10, .f32⟩
  | 75 => ⟨S1x10, .f32⟩
  | 76 => ⟨S320000x10, .f32⟩
  | 77 => ⟨S320000x10, .f32⟩
  | 78 => ⟨S_, .f32⟩
  | 79 => ⟨S320000x10, .f32⟩
  | 80 => ⟨S320000x10, .f32⟩
  | 81 => ⟨S320000x10, .f32⟩
  | 82 => ⟨S_, .i32⟩
  | 83 => ⟨S10240000, .i32⟩
  | 84 => ⟨S10240000, .i1⟩
  | 85 => ⟨S_, .i32⟩
  | 86 => ⟨S10240000, .i32⟩
  | 87 => ⟨S10240000, .i32⟩
  | 88 => ⟨S10240000, .i32⟩
  | 89 => ⟨S10240000x1, .i32⟩
  | 90 => ⟨S10240000, .f32⟩
  | 91 => ⟨S_, .i32⟩
  | 92 => ⟨S10240000, .i32⟩
  | 93 => ⟨S10240000, .i1⟩
  | 94 => ⟨S_, .i32⟩
  | 95 => ⟨S10240000, .i32⟩
  | 96 => ⟨S10240000, .i32⟩
  | 97 => ⟨S10240000, .i32⟩
  | 98 => ⟨S10240000x1, .i32⟩
  | 99 => ⟨S10240000, .f32⟩
  | 100 => ⟨S10240000, .f32⟩
  | 101 => ⟨S10240000x1, .f32⟩
  | 102 => ⟨S_, .i32⟩
  | 103 => ⟨S10240000, .i32⟩
  | 104 => ⟨S10240000, .i1⟩
  | 105 => ⟨S_, .i32⟩
  | 106 => ⟨S10240000, .i32⟩
  | 107 => ⟨S10240000, .i32⟩
  | 108 => ⟨S10240000, .i32⟩
  | 109 => ⟨S10240000x1, .i32⟩
  | 110 => ⟨S10240000x10, .f32⟩
  | 111 => ⟨S10240000x10, .f32⟩
  | 112 => ⟨S10240000x10, .f32⟩
  | 113 => ⟨S_, .f32⟩
  | 114 => ⟨S320000x10, .f32⟩
  | 115 => ⟨S10240000x1, .i32⟩
  | 116 => ⟨S320000x10, .f32⟩
  | 117 => ⟨S_, .f32⟩
  | 118 => ⟨S320000, .f32⟩
  | 119 => ⟨S320000, .f32⟩
  | 120 => ⟨S320000, .f32⟩
  | 121 => ⟨S320000x1, .f32⟩
  | 122 => ⟨S320000x10, .f32⟩
  | 123 => ⟨S320000x10, .f32⟩
  | 124 => ⟨S320000x10, .f32⟩
  | 125 => ⟨S1x10, .f32⟩
  | 126 => ⟨S320000x10, .f32⟩
  | 127 => ⟨S320000x10, .f32⟩
  | _ => ⟨S320000x128, .f32⟩

abbrev hbmTy0_1 (i : Nat) : BufTy := match i % 128 with
  | 0 => ⟨S_, .f32⟩
  | 1 => ⟨S320000x10, .f32⟩
  | 2 => ⟨S320000x10, .f32⟩
  | 3 => ⟨S320000x1, .f32⟩
  | 4 => ⟨S1x1, .f32⟩
  | 5 => ⟨S320000x1, .f32⟩
  | 6 => ⟨S320000x1, .f32⟩
  | 7 => ⟨S16x20000x1, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_cst : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call2_cst : Ref sig .tc := ⟨.hbm, 128, rfl⟩
abbrev main_call2_v0 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x10240000_S1x10240000_0_0 : S2x10240000.Slices ![0, 0] S1x10240000
  shapeCasts_S1x10240000_S10240000 : S1x10240000.ShapeCasts S10240000
  slices_S2x10240000_S1x10240000_1_0 : S2x10240000.Slices ![1, 0] S1x10240000
  bcast_S_S10240000 : S_.BroadcastsInDim S10240000 (![] : Fin 0 → Fin S10240000.rank)
  bcast_S_S320000 : S_.BroadcastsInDim S320000 (![] : Fin 0 → Fin S320000.rank)
  bcast_S10240000_S10240000x1_0 : S10240000.BroadcastsInDim S10240000x1 (![0] : Fin 1 → Fin S10240000x1.rank)
  bcast_S10_S1x10_1 : S10.BroadcastsInDim S1x10 (![1] : Fin 1 → Fin S1x10.rank)
  bcast_S1x10_S320000x10_0_1 : S1x10.BroadcastsInDim S320000x10 (![0, 1] : Fin 2 → Fin S320000x10.rank)
  bcast_S_S320000x10 : S_.BroadcastsInDim S320000x10 (![] : Fin 0 → Fin S320000x10.rank)
  bcast_S10240000x1_S10240000x10_0_1 : S10240000x1.BroadcastsInDim S10240000x10 (![0, 1] : Fin 2 → Fin S10240000x10.rank)
  bcast_S320000_S320000x1_0 : S320000.BroadcastsInDim S320000x1 (![0] : Fin 1 → Fin S320000x1.rank)
  bcast_S320000x1_S320000x10_0_1 : S320000x1.BroadcastsInDim S320000x10 (![0, 1] : Fin 2 → Fin S320000x10.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  shapeCasts_S320000x1_S16x20000x1 : S320000x1.ShapeCasts S16x20000x1
  scatter_S320000_S10240000x1_S10240000_n_0_0_1_wf : ScatterDims.WF S320000 S10240000x1 S10240000 [] [0] [0] 1
  dot_S320000x128_S128x10_S320000x10_1_0_0_1_n_n_wf : DotDims.WF S320000x128 S128x10 S320000x10 [1] [0] [0] [1] [] []
  dot_S320000x10_S10x10_S320000x10_1_0_0_1_n_n_wf : DotDims.WF S320000x10 S10x10 S320000x10 [1] [0] [0] [1] [] []
  gather_S320000_S10240000x1_S10240000_n_0_n_n_0_1_1_wf : GatherDims.WF S320000 S10240000x1 S10240000 [] [0] [] [0] [] 1 ![1]
  gather_S320000x10_S10240000x1_S10240000x10_1_0_n_n_0_1_110_wf : GatherDims.WF S320000x10 S10240000x1 S10240000x10 [1] [0] [] [0] [] 1 ![1, 10]
  scatter_S320000x10_S10240000x1_S10240000x10_1_0_0_1_wf : ScatterDims.WF S320000x10 S10240000x1 S10240000x10 [1] [0] [0] 1
  dot_S320000x10_S10x1_S320000x1_1_0_0_1_n_n_wf : DotDims.WF S320000x10 S10x1 S320000x1 [1] [0] [0] [1] [] []

variable [Facts₀]

def scatter_S320000_S10240000x1_S10240000_n_0_0_1 : ScatterDims S320000 S10240000x1 S10240000 where
  updateWindowDims := []
  insertedWindowDims := [0]
  scatterDimsToOperandDims := [0]
  indexVectorDim := 1
  wf := scatter_S320000_S10240000x1_S10240000_n_0_0_1_wf
def dot_S320000x128_S128x10_S320000x10_1_0_0_1_n_n : DotDims S320000x128 S128x10 S320000x10 where
  lhsContracting := [1]
  rhsContracting := [0]
  lhsNonContracting := [0]
  rhsNonContracting := [1]
  lhsBatch := []
  rhsBatch := []
  wf := dot_S320000x128_S128x10_S320000x10_1_0_0_1_n_n_wf
def dot_S320000x10_S10x10_S320000x10_1_0_0_1_n_n : DotDims S320000x10 S10x10 S320000x10 where
  lhsContracting := [1]
  rhsContracting := [0]
  lhsNonContracting := [0]
  rhsNonContracting := [1]
  lhsBatch := []
  rhsBatch := []
  wf := dot_S320000x10_S10x10_S320000x10_1_0_0_1_n_n_wf
def gather_S320000_S10240000x1_S10240000_n_0_n_n_0_1_1 : GatherDims S320000 S10240000x1 S10240000 where
  offsetDims := []
  collapsedSliceDims := [0]
  operandBatchingDims := []
  startIndicesBatchingDims := []
  startIndexMap := [0]
  indexVectorDim := 1
  sliceSizes := ![1]
  wf := gather_S320000_S10240000x1_S10240000_n_0_n_n_0_1_1_wf
def gather_S320000x10_S10240000x1_S10240000x10_1_0_n_n_0_1_110 : GatherDims S320000x10 S10240000x1 S10240000x10 where
  offsetDims := [1]
  collapsedSliceDims := [0]
  operandBatchingDims := []
  startIndicesBatchingDims := []
  startIndexMap := [0]
  indexVectorDim := 1
  sliceSizes := ![1, 10]
  wf := gather_S320000x10_S10240000x1_S10240000x10_1_0_n_n_0_1_110_wf
def scatter_S320000x10_S10240000x1_S10240000x10_1_0_0_1 : ScatterDims S320000x10 S10240000x1 S10240000x10 where
  updateWindowDims := [1]
  insertedWindowDims := [0]
  scatterDimsToOperandDims := [0]
  indexVectorDim := 1
  wf := scatter_S320000x10_S10240000x1_S10240000x10_1_0_0_1_wf
def dot_S320000x10_S10x1_S320000x1_1_0_0_1_n_n : DotDims S320000x10 S10x1 S320000x1 where
  lhsContracting := [1]
  rhsContracting := [0]
  lhsNonContracting := [0]
  rhsNonContracting := [1]
  lhsBatch := []
  rhsBatch := []
  wf := dot_S320000x10_S10x1_S320000x1_1_0_0_1_n_n_wf

class Facts : Prop extends Facts₀ where

variable [Facts]
-- ==== Proof.Spec.lean ====
import Idealize.ShloMosaic.PureOps.Ideal.Laws
import Idealize.ShloMosaic.Lib.ValueIdx

/-!
  The whole-array functions that the launches of this program compute, read at the ideal values (every float an
  extended real, every operation exact, a change of float format the identity).

  * `affine x w b`: entry (p, q) is the sum over k of x(p, k) · w(k, q), plus the bias row's entry b(0, q);
  * `affineRelu x w b`: the same, then the maximum with zero;
  * `scaleRows n g`: entry (e, q) is the column entry n(e, 0) times g(e, q);
  * `mixRelu a h s b`: entry (p, q) is the maximum with zero of (a(p, q) + s(p, 0) · h(p, q)) + b(0, q).

  They are stated over arbitrary extents, so the same function describes a block of rows and the whole array.
-/

open scoped BigOperators

noncomputable section

namespace Cert.Spec

open Idealize.ShloMosaic Idealize.ShloMosaic.ValueIdx

/-- A rank-two array of extended reals. -/
abbrev Mat (M N : Nat) : Type := (⟨2, ![M, N]⟩ : Shape).Idx → EReal

/-- x · w + b, the bias a single row added to every row of the product. -/
def affine {M K N : Nat} (x : Mat M K) (w : Mat K N) (b : Mat 1 N) : Mat M N :=
  fun i => (∑ k : Fin K, x (ix2 (i 0) k) * w (ix2 k (i 1))) + b (ix2 0 (i 1))

/-- The positive part of x · w + b. -/
def affineRelu {M K N : Nat} (x : Mat M K) (w : Mat K N) (b : Mat 1 N) : Mat M N :=
  fun i => max (affine x w b i) 0

/-- Row e of g scaled by the single entry of row e of the column n. -/
def scaleRows {E L : Nat} (n : Mat E 1) (g : Mat E L) : Mat E L :=
  fun i => n (ix2 (i 0) 0) * g i

/-- The positive part of (a + s ⊙ h) + b, the column s scaling the rows of h and the row b added to every row. -/
def mixRelu {N L : Nat} (a h : Mat N L) (s : Mat N 1) (b : Mat 1 L) : Mat N L :=
  fun i => max ((a i + s (ix2 (i 0) 0) * h i) + b (ix2 0 (i 1))) 0

theorem affine_apply {M K N : Nat} (x : Mat M K) (w : Mat K N) (b : Mat 1 N) (p : Fin M) (q : Fin N) :
    affine x w b (ix2 p q) = (∑ k : Fin K, x (ix2 p k) * w (ix2 k q)) + b (ix2 0 q) := rfl

theorem affineRelu_apply {M K N : Nat} (x : Mat M K) (w : Mat K N) (b : Mat 1 N) (p : Fin M) (q : Fin N) :
    affineRelu x w b (ix2 p q) = max ((∑ k : Fin K, x (ix2 p k) * w (ix2 k q)) + b (ix2 0 q)) 0 := rfl

theorem scaleRows_apply {E L : Nat} (n : Mat E 1) (g : Mat E L) (e : Fin E) (q : Fin L) :
    scaleRows n g (ix2 e q) = n (ix2 e 0) * g (ix2 e q) := rfl

theorem mixRelu_apply {N L : Nat} (a h : Mat N L) (s : Mat N 1) (b : Mat 1 L) (p : Fin N) (q : Fin L) :
    mixRelu a h s b (ix2 p q) = max ((a (ix2 p q) + s (ix2 p 0) * h (ix2 p q)) + b (ix2 0 q)) 0 := rfl

end Cert.Spec

end
-- ==== Proof.Chain.lean ====
import proofs.«167097_j54168127537417_1_alg».proof.KernelIdeal
import proofs.«167097_j54168127537417_1_alg».proof.Proof.Spec

/-!
  The network as ONE function of its ten argument arrays, at the ideal values.

  From the edge list e (two rows of node numbers: sources, then destinations) come, once: the degree of every node
  (the number of edges that end in it, plus two for the weighted self loop), its inverse square root `dis`, the
  per-edge weight `nrm` = dis(source) · dis(destination) and the per-node self-loop weight `selfCoef` = 2 · dis · dis.
  The node numbers are read the way the host reads them: a negative number counts from the end (`wrap`), the gather
  and the scatter-add treat what is still out of range in their own way; none of that is opened here, both programs
  apply the same host operations to the same edge list.

  A layer maps node features h to the positive part of  A · (h w) + selfCoef ⊙ (h w) + b, where A · x scatters, for
  every edge, nrm(edge) times row source(edge) of x into row destination(edge). The network is an input layer
  (positive part of x w + b), two such layers, and an output layer (x w + b), laid out as 16 graphs of 20000 nodes.
-/

noncomputable section

namespace Cert.Chain

open Cert.KernelIdeal Cert.KernelIdeal.Facts₀ Idealize.ShloMosaic Idealize.ShloMosaic.ValueIdx

-- the printed program's stated layout side conditions (shape casts, slices, broadcasts, the gathers' and scatters'
-- dimension records): whatever witnesses them
variable [Cert.KernelIdeal.Facts₀]

/-- An array of the given shape and element type at the ideal values. -/
abbrev Arr (s : Shape) (e : EltTy) : Type := (⟨s, e⟩ : BufTy).Contents (Elt Ideal)

/-- A vector as a one-column matrix. -/
def colOf {N : Nat} (v : (⟨1, ![N]⟩ : Shape).Idx → EReal) : Cert.Spec.Mat N 1 := fun i => v (ix1 (i 0))

/-- A vector as a one-row matrix. -/
def rowOf {N : Nat} (v : (⟨1, ![N]⟩ : Shape).Idx → EReal) : Cert.Spec.Mat 1 N := fun i => v (ix1 (i 1))

/-- The zero row. -/
def zeroRow (N : Nat) : Cert.Spec.Mat 1 N := fun _ => 0

/-- The edges' source nodes: row 0 of the edge list. -/
def src (e : Arr S2x10240000 .i32) : Arr S10240000 .i32 :=
  shapeCast S10240000 (extractStridedSlice S1x10240000 ![0, 0] e slices_S2x10240000_S1x10240000_0_0) shapeCasts_S1x10240000_S10240000

/-- The edges' destination nodes: row 1 of the edge list. -/
def dst (e : Arr S2x10240000 .i32) : Arr S10240000 .i32 :=
  shapeCast S10240000 (extractStridedSlice S1x10240000 ![1, 0] e slices_S2x10240000_S1x10240000_1_0) shapeCasts_S1x10240000_S10240000

/-- The destinations as the scatter's index column. -/
def dstCol (e : Arr S2x10240000 .i32) : Arr S10240000x1 .i32 :=
  broadcastInDim S10240000x1 ![0] bcast_S10240000_S10240000x1_0 (dst e)

/-- Node numbers as a gather's index column, a negative number counted from the end. -/
def wrap (ix : Arr S10240000 .i32) : Arr S10240000x1 .i32 :=
  broadcastInDim S10240000x1 ![0] bcast_S10240000_S10240000x1_0
    (select (cmpi .slt ix (broadcastInDim S10240000 ![] bcast_S_S10240000 (constantI S_ 32 0#32)))
      (addi ix (broadcastInDim S10240000 ![] bcast_S_S10240000 (constantI S_ 32 320000#32))) ix)

/-- The inverse square root of every node's degree (edges ending in it, plus two). -/
def dis (e : Arr S2x10240000 .i32) : Arr S320000 .f32 :=
  Host.rsqrt (F := Ideal) (addf (F := Ideal)
    (Host.scatterAdd (F := Ideal) (φ := .f32) scatter_S320000_S10240000x1_S10240000_n_0_0_1
      (broadcastInDim S320000 ![] bcast_S_S320000 (constant (F := Ideal) S_ .f32 0x00000000#32)) (dstCol e)
      (broadcastInDim S10240000 ![] bcast_S_S10240000 (constant (F := Ideal) S_ .f32 0x3F800000#32)))
    (broadcastInDim S320000 ![] bcast_S_S320000 (constant (F := Ideal) S_ .f32 0x40000000#32)))

/-- The self loop's weight per node: 2 · dis · dis. -/
def selfCoef (e : Arr S2x10240000 .i32) : Arr S320000 .f32 :=
  mulf (F := Ideal) (mulf (F := Ideal) (broadcastInDim S320000 ![] bcast_S_S320000 (constant (F := Ideal) S_ .f32 0x40000000#32)) (dis e)) (dis e)

/-- The weight per edge: dis at its source times dis at its destination. -/
def nrm (e : Arr S2x10240000 .i32) : Arr S10240000 .f32 :=
  (mulf (F := Ideal) (φ := .f32) : Arr S10240000 .f32 → Arr S10240000 .f32 → Arr S10240000 .f32)
    (((fun x i => Host.gather gather_S320000_S10240000x1_S10240000_n_0_n_n_0_1_1 x i) :
      Arr S320000 .f32 → Arr S10240000x1 .i32 → Arr S10240000 .f32) (dis e) (wrap (src e)))
    (((fun x i => Host.gather gather_S320000_S10240000x1_S10240000_n_0_n_n_0_1_1 x i) :
      Arr S320000 .f32 → Arr S10240000x1 .i32 → Arr S10240000 .f32) (dis e) (wrap (dst e)))

/-- Per edge, the row of x at the edge's source. -/
def gatherRows (x : Arr S320000x10 .f32) (e : Arr S2x10240000 .i32) : Arr S10240000x10 .f32 :=
  ((fun x i => Host.gather gather_S320000x10_S10240000x1_S10240000x10_1_0_n_n_0_1_110 x i) :
    Arr S320000x10 .f32 → Arr S10240000x1 .i32 → Arr S10240000x10 .f32) x (wrap (src e))

/-- Per node, the sum of the edge rows whose edge ends in it. -/
def scatterCols (u : Arr S10240000x10 .f32) (e : Arr S2x10240000 .i32) : Arr S320000x10 .f32 :=
  ((fun x i u => Host.scatterAdd (F := Ideal) (φ := .f32) scatter_S320000x10_S10240000x1_S10240000x10_1_0_0_1 x i u) :
    Arr S320000x10 .f32 → Arr S10240000x1 .i32 → Arr S10240000x10 .f32 → Arr S320000x10 .f32)
    (broadcastInDim S320000x10 ![] bcast_S_S320000x10 (constant (F := Ideal) S_ .f32 0x00000000#32)) (dstCol e) u

/-- The features times the layer's weights (no bias yet). -/
def lin (h : Arr S320000x10 .f32) (w : Arr S10x10 .f32) : Arr S320000x10 .f32 :=
  Cert.Spec.affine h w (zeroRow 10)

/-- The weighted edge rows of x. -/
def msgs (x : Arr S320000x10 .f32) (e : Arr S2x10240000 .i32) : Arr S10240000x10 .f32 :=
  Cert.Spec.scaleRows (colOf (nrm e)) (gatherRows x e)

/-- One graph layer: the positive part of (neighbour sum + self loop) + bias, of the features times the weights. -/
def layer (h : Arr S320000x10 .f32) (w : Arr S10x10 .f32) (b : Arr S10 .f32) (e : Arr S2x10240000 .i32) : Arr S320000x10 .f32 :=
  Cert.Spec.mixRelu (scatterCols (msgs (lin h w) e) e) (lin h w) (colOf (selfCoef e)) (rowOf b)

/-- The input layer. -/
def inLayer (x : Arr S320000x128 .f32) (w : Arr S128x10 .f32) (b : Arr S10 .f32) : Arr S320000x10 .f32 :=
  Cert.Spec.affineRelu x w (rowOf b)

/-- The output layer, per node. -/
def outLayer (h : Arr S320000x10 .f32) (w : Arr S10x1 .f32) (b : Arr S1 .f32) : Arr S320000x1 .f32 :=
  Cert.Spec.affine h w (rowOf b)

/-- The whole network. -/
def net (a0 : Arr S320000x128 .f32) (a1 : Arr S2x10240000 .i32) (a2 : Arr S128x10 .f32) (a3 : Arr S10 .f32)
    (a4 : Arr S10x10 .f32) (a5 : Arr S10 .f32) (a6 : Arr S10x10 .f32) (a7 : Arr S10 .f32)
    (a8 : Arr S10x1 .f32) (a9 : Arr S1 .f32) : Arr S16x20000x1 .f32 :=
  shapeCast S16x20000x1 (outLayer (layer (layer (inLayer a0 a2 a3) a4 a5 a1) a6 a7 a1) a8 a9) shapeCasts_S320000x1_S16x20000x1

end Cert.Chain

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Region0.lean ====
import proofs.«167097_j54168127537417_1_alg».proof.Proof.Gen.KernelIdeal.Frame
import proofs.«167097_j54168127537417_1_alg».proof.Proof.Spec
import proofs.«167097_j54168127537417_1_alg».proof.Proof.LibPlainDot
import Idealize.ShloMosaic.Lib.Pipeline.Value
import Idealize.ShloMosaic.Lib.ValueIdx
import Idealize.ShloMosaic.Lib.ValueLayout

/-!
  Launch 0 of the program in closed form: the output array after the region is the positive part of x · w + b of the region's three input
  arrays as the region finds them, at the ideal values (every float an extended real, every operation exact, a change
  of float format the identity).

  The steps: the body's payload is that function of its three loaded blocks; the printed index maps in closed form,
  decided over the grid; what one grid point writes back is its block of that function of the whole arrays; the
  output's blocks tile the output array; so the array ends holding the function.
-/

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The body's payload is the positive part of the block product plus the bias row: the two format changes are the
    identity at the ideal values, the two shape casts keep the shape, the broadcast repeats the one bias row, and the
    product accumulated into the zero splat is the plain sum over the contraction coordinate. -/
theorem pay_eq (x0 : Vec Ideal S8000x128 .f32) (x1 : Vec Ideal S128x10 .f32) (x2 : Vec Ideal S1x10 .f32) :
    k0_pay1 x0 x1 x2 = Cert.Spec.affineRelu x0 x1 x2 := by
  funext j
  obtain ⟨p, q, rfl⟩ : ∃ (p : Fin 8000) (q : Fin 10), j = ix2 p q := ⟨j 0, j 1, eq_ix2 j⟩
  unfold k0_pay1
  rw [Cert.Spec.affineRelu_apply, maximumf_apply, addf_apply, broadcast_apply, shapeCast_self, shapeCast_self,
    broadcastTo_1b_ab_apply]
  refine congrArg₂ max (congrArg₂ (· + ·) ?_ rfl) Ideal.ofBits_zero_f32
  exact (Cert.Lib.PlainDot.matmul_zero_apply dot_S8000x128_S128x10_S8000x10_1_0_0_1_n_n rfl rfl rfl rfl rfl rfl none
    (truncf FTy.bf16 x0 bitsLt_bf16_f32) (truncf FTy.bf16 x1 bitsLt_bf16_f32) p q).trans
    (Finset.sum_congr rfl fun k _ => rfl)

/-- The printed index maps, decided over the grid: the row blocks of the left operand and of the output move with the
    point, the right operand and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the positive part of x · w + b, x, w and b the three input arrays as the
    region finds them. The output block's entry (p, q) is array entry (8000 t + p, q); the left operand's block entry
    (p, k) is array entry (8000 t + p, k); the right operand and the bias row are read whole. -/
theorem flushed_eq (c : Dev nD) (t : Fin cfg0.N) :
    (dat0 V c).flushed 3 t = ((cfg0.win 3).blk t).view.read (Elt Ideal)
      (Cert.Spec.affineRelu (V c main_arg0) (V c main_arg2) (V c main_v30)) := by
  show (cfg0.win 3).cut (grid0.coords t) ((dat0 V c).after 3 t) = _
  rw [after0_3]
  unfold out0_3
  rw [View.canon_unit_zero hz]
  simp only [View.ld_unit_zero (S := S8000x128) hz, View.ld_unit_zero (S := S128x10) hz, View.ld_unit_zero (S := S1x10) hz]
  rw [pay_eq]
  obtain ⟨e00, e01, e10, e11, e20, e21, e30, e31⟩ := idx_facts t
  have ht : t.val < 40 := t.isLt
  funext j
  obtain ⟨p, q, rfl⟩ : ∃ (p : Fin 8000) (q : Fin 10), j = ix2 p q := ⟨j 0, j 1, eq_ix2 j⟩
  have hrow : t.val * 8000 + p.val < 320000 := by have := p.isLt; omega
  have h3 : ((cfg0.win 3).blk t).view.emb (ix2 p q) = (ix2 (⟨t.val * 8000 + p.val, hrow⟩ : Fin 320000) q : S320000x10.Idx) := by
    funext a; apply Fin.ext
    match a with
    | ⟨0, _⟩ => show win0_3.index t (0 : Fin 2) * 8000 + 1 * p.val = t.val * 8000 + p.val; omega
    | ⟨1, _⟩ => show win0_3.index t (1 : Fin 2) * 10 + 1 * q.val = q.val; omega
  have h0 : ∀ k : Fin 128, ((cfg0.win 0).blk t).view.emb (ix2 p k) = (ix2 (⟨t.val * 8000 + p.val, hrow⟩ : Fin 320000) k : S320000x128.Idx) := by
    intro k; funext a; apply Fin.ext
    match a with
    | ⟨0, _⟩ => show win0_0.index t (0 : Fin 2) * 8000 + 1 * p.val = t.val * 8000 + p.val; omega
    | ⟨1, _⟩ => show win0_0.index t (1 : Fin 2) * 128 + 1 * k.val = k.val; omega
  have h1 : ∀ k : Fin 128, ((cfg0.win 1).blk t).view.emb (ix2 k q) = (ix2 k q : S128x10.Idx) := by
    intro k; funext a; apply Fin.ext
    match a with
    | ⟨0, _⟩ => show win0_1.index t (0 : Fin 2) * 128 + 1 * k.val = k.val; omega
    | ⟨1, _⟩ => show win0_1.index t (1 : Fin 2) * 10 + 1 * q.val = q.val; omega
  have h2 : ((cfg0.win 2).blk t).view.emb (ix2 (0 : Fin 1) q) = (ix2 (0 : Fin 1) q : S1x10.Idx) := by
    funext a; apply Fin.ext
    match a with
    | ⟨0, _⟩ => show win0_2.index t (0 : Fin 2) * 1 + 1 * 0 = 0; omega
    | ⟨1, _⟩ => show win0_2.index t (1 : Fin 2) * 10 + 1 * q.val = q.val; omega
  show Cert.Spec.affineRelu (iblk0 V c 0 t) (iblk0 V c 1 t) (iblk0 V c 2 t) (ix2 p q)
    = Cert.Spec.affineRelu (V c main_arg0) (V c main_arg2) (V c main_v30) (((cfg0.win 3).blk t).view.emb (ix2 p q))
  rw [h3, Cert.Spec.affineRelu_apply, Cert.Spec.affineRelu_apply]
  refine congrArg₂ max (congrArg₂ (· + ·) (Finset.sum_congr rfl fun k _ => congrArg₂ (· * ·) ?_ ?_) ?_) rfl
  · show V c main_arg0 (((cfg0.win 0).blk t).view.emb (ix2 p k)) = _
    rw [h0 k]
  · show V c main_arg2 (((cfg0.win 1).blk t).view.emb (ix2 k q)) = _
    rw [h1 k]
  · show V c main_v30 (((cfg0.win 2).blk t).view.emb (ix2 (0 : Fin 1) q)) = _
    rw [h2]

/-- An index of the output array is in point t's block iff each coordinate is in the block's range on its axis. -/
theorem mem_blk (t : Fin cfg0.N) (i : S320000x10.Idx) :
    i ∈ ((cfg0.win 3).blk t).view.set ↔ ∀ a : Fin 2, win0_3.index t a * S8000x10.size a ≤ (i a).val
      ∧ (i a).val < win0_3.index t a * S8000x10.size a + S8000x10.size a := by
  show i ∈ ((View.whole main_v31).slice (win0_3.rect t)).set ↔ _
  rw [View.set_slice_whole, Rect.mem_set_unit]
  exact Iff.rfl

/-- The output's blocks tile the array: row r lies in the block of point r / 8000, and every point writes back. -/
theorem cover (i : S320000x10.Idx) :
    ∃ t : Fin cfg0.N, (cfg0.win 3).flush t = true ∧ i ∈ ((cfg0.win 3).blk t).view.set := by
  have hi0 : (i 0).val < 320000 := (i 0).isLt
  have hi1 : (i 1).val < 10 := (i 1).isLt
  obtain ⟨t, ht⟩ : ∃ t : Fin cfg0.N, t.val = (i 0).val / 8000 :=
    ⟨⟨(i 0).val / 8000, by show (i 0).val / 8000 < 40; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 8000 ≤ (i 0).val ∧ (i 0).val < win0_3.index t (0 : Fin 2) * 8000 + 8000
    omega
  | ⟨1, _⟩ =>
    show win0_3.index t (1 : Fin 2) * 10 ≤ (i 1).val ∧ (i 1).val < win0_3.index t (1 : Fin 2) * 10 + 10
    omega

/-- The output array after the region: the positive part of x · w + b of the three input arrays as the region finds
    them. -/
theorem final0 (c : Dev nD) :
    (dat0 V c).arrAt 3 cfg0.N = Cert.Spec.affineRelu (V c main_arg0) (V c main_arg2) (V c main_v30) :=
  (dat0 V c).arrAt_eq_of_cover 3 (Cert.Spec.affineRelu (V c main_arg0) (V c main_arg2) (V c main_v30))
    (fun t _ => flushed_eq V c t) cover

end Cert.KernelIdeal.Region0

end
-- ==== Proof.Region1.lean ====
import proofs.«167097_j54168127537417_1_alg».proof.Proof.Gen.KernelIdeal.Frame
import proofs.«167097_j54168127537417_1_alg».proof.Proof.Spec
import proofs.«167097_j54168127537417_1_alg».proof.Proof.LibPlainDot
import Idealize.ShloMosaic.Lib.Pipeline.Value
import Idealize.ShloMosaic.Lib.ValueIdx
import Idealize.ShloMosaic.Lib.ValueLayout

/-!
  Launch 1 of the program in closed form: the output array after the region is x · w + b of the region's three input
  arrays as the region finds them, at the ideal values (every float an extended real, every operation exact, a change
  of float format the identity).

  The steps: the body's payload is that function of its three loaded blocks; the printed index maps in closed form,
  decided over the grid; what one grid point writes back is its block of that function of the whole arrays; the
  output's blocks tile the output array; so the array ends holding the function.
-/

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The body's payload is the block product plus the bias row: the two format changes are the identity at the ideal
    values, the three shape casts keep the shape, the broadcast repeats the one bias row, and the product accumulated
    into the zero splat is the plain sum over the contraction coordinate. -/
theorem pay_eq (x0 : Vec Ideal S8000x10 .f32) (x1 : Vec Ideal S10x10 .f32) (x2 : Vec Ideal S1x10 .f32) :
    k1_pay1 x0 x1 x2 = Cert.Spec.affine x0 x1 x2 := by
  funext j
  obtain ⟨p, q, rfl⟩ : ∃ (p : Fin 8000) (q : Fin 10), j = ix2 p q := ⟨j 0, j 1, eq_ix2 j⟩
  unfold k1_pay1
  rw [Cert.Spec.affine_apply, addf_apply, shapeCast_self, shapeCast_self, shapeCast_self, broadcastTo_1b_ab_apply]
  refine congrArg₂ (· + ·) ?_ rfl
  exact (Cert.Lib.PlainDot.matmul_zero_apply dot_S8000x10_S10x10_S8000x10_1_0_0_1_n_n rfl rfl rfl rfl rfl rfl none
    (truncf FTy.bf16 x0 bitsLt_bf16_f32) (truncf FTy.bf16 x1 bitsLt_bf16_f32) p q).trans
    (Finset.sum_congr rfl fun k _ => rfl)

/-- The printed index maps, decided over the grid: the row blocks of the left operand and of the output move with the
    point, the right operand and the bias row stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of x · w + b, x, w and b the three input arrays as the region finds them. The
    output block's entry (p, q) is array entry (8000 t + p, q); the left operand's block entry (p, k) is array entry
    (8000 t + p, k); the right operand and the bias row are read whole. -/
theorem flushed_eq (c : Dev nD) (t : Fin cfg1.N) :
    (dat1 V c).flushed 3 t = ((cfg1.win 3).blk t).view.read (Elt Ideal)
      (Cert.Spec.affine (V c main_v31) (V c main_arg4) (V c main_v33)) := by
  show (cfg1.win 3).cut (grid1.coords t) ((dat1 V c).after 3 t) = _
  rw [after1_3]
  unfold out1_3
  rw [View.canon_unit_zero hz]
  simp only [View.ld_unit_zero (S := S8000x10) hz, View.ld_unit_zero (S := S10x10) hz, View.ld_unit_zero (S := S1x10) hz]
  rw [pay_eq]
  obtain ⟨e00, e01, e10, e11, e20, e21, e30, e31⟩ := idx_facts t
  have ht : t.val < 40 := t.isLt
  funext j
  obtain ⟨p, q, rfl⟩ : ∃ (p : Fin 8000) (q : Fin 10), j = ix2 p q := ⟨j 0, j 1, eq_ix2 j⟩
  have hrow : t.val * 8000 + p.val < 320000 := by have := p.isLt; omega
  have h3 : ((cfg1.win 3).blk t).view.emb (ix2 p q) = (ix2 (⟨t.val * 8000 + p.val, hrow⟩ : Fin 320000) q : S320000x10.Idx) := by
    funext a; apply Fin.ext
    match a with
    | ⟨0, _⟩ => show win1_3.index t (0 : Fin 2) * 8000 + 1 * p.val = t.val * 8000 + p.val; omega
    | ⟨1, _⟩ => show win1_3.index t (1 : Fin 2) * 10 + 1 * q.val = q.val; omega
  have h0 : ∀ k : Fin 10, ((cfg1.win 0).blk t).view.emb (ix2 p k) = (ix2 (⟨t.val * 8000 + p.val, hrow⟩ : Fin 320000) k : S320000x10.Idx) := by
    intro k; funext a; apply Fin.ext
    match a with
    | ⟨0, _⟩ => show win1_0.index t (0 : Fin 2) * 8000 + 1 * p.val = t.val * 8000 + p.val; omega
    | ⟨1, _⟩ => show win1_0.index t (1 : Fin 2) * 10 + 1 * k.val = k.val; omega
  have h1 : ∀ k : Fin 10, ((cfg1.win 1).blk t).view.emb (ix2 k q) = (ix2 k q : S10x10.Idx) := by
    intro k; funext a; apply Fin.ext
    match a with
    | ⟨0, _⟩ => show win1_1.index t (0 : Fin 2) * 10 + 1 * k.val = k.val; omega
    | ⟨1, _⟩ => show win1_1.index t (1 : Fin 2) * 10 + 1 * q.val = q.val; omega
  have h2 : ((cfg1.win 2).blk t).view.emb (ix2 (0 : Fin 1) q) = (ix2 (0 : Fin 1) q : S1x10.Idx) := by
    funext a; apply Fin.ext
    match a with
    | ⟨0, _⟩ => show win1_2.index t (0 : Fin 2) * 1 + 1 * 0 = 0; omega
    | ⟨1, _⟩ => show win1_2.index t (1 : Fin 2) * 10 + 1 * q.val = q.val; omega
  show Cert.Spec.affine (iblk1 V c 0 t) (iblk1 V c 1 t) (iblk1 V c 2 t) (ix2 p q)
    = Cert.Spec.affine (V c main_v31) (V c main_arg4) (V c main_v33) (((cfg1.win 3).blk t).view.emb (ix2 p q))
  rw [h3, Cert.Spec.affine_apply, Cert.Spec.affine_apply]
  refine congrArg₂ (· + ·) (Finset.sum_congr rfl fun k _ => congrArg₂ (· * ·) ?_ ?_) ?_
  · show V c main_v31 (((cfg1.win 0).blk t).view.emb (ix2 p k)) = _
    rw [h0 k]
  · show V c main_arg4 (((cfg1.win 1).blk t).view.emb (ix2 k q)) = _
    rw [h1 k]
  · show V c main_v33 (((cfg1.win 2).blk t).view.emb (ix2 (0 : Fin 1) q)) = _
    rw [h2]

/-- An index of the output array is in point t's block iff each coordinate is in the block's range on its axis. -/
theorem mem_blk (t : Fin cfg1.N) (i : S320000x10.Idx) :
    i ∈ ((cfg1.win 3).blk t).view.set ↔ ∀ a : Fin 2, win1_3.index t a * S8000x10.size a ≤ (i a).val
      ∧ (i a).val < win1_3.index t a * S8000x10.size a + S8000x10.size a := by
  show i ∈ ((View.whole main_v34).slice (win1_3.rect t)).set ↔ _
  rw [View.set_slice_whole, Rect.mem_set_unit]
  exact Iff.rfl

/-- The output's blocks tile the array: row r lies in the block of point r / 8000, and every point writes back. -/
theorem cover (i : S320000x10.Idx) :
    ∃ t : Fin cfg1.N, (cfg1.win 3).flush t = true ∧ i ∈ ((cfg1.win 3).blk t).view.set := by
  have hi0 : (i 0).val < 320000 := (i 0).isLt
  have hi1 : (i 1).val < 10 := (i 1).isLt
  obtain ⟨t, ht⟩ : ∃ t : Fin cfg1.N, t.val = (i 0).val / 8000 :=
    ⟨⟨(i 0).val / 8000, by show (i 0).val / 8000 < 40; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 8000 ≤ (i 0).val ∧ (i 0).val < win1_3.index t (0 : Fin 2) * 8000 + 8000
    omega
  | ⟨1, _⟩ =>
    show win1_3.index t (1 : Fin 2) * 10 ≤ (i 1).val ∧ (i 1).val < win1_3.index t (1 : Fin 2) * 10 + 10
    omega

/-- The output array after the region: x · w + b of the three input arrays as the region finds them. -/
theorem final1 (c : Dev nD) :
    (dat1 V c).arrAt 3 cfg1.N = Cert.Spec.affine (V c main_v31) (V c main_arg4) (V c main_v33) :=
  (dat1 V c).arrAt_eq_of_cover 3 (Cert.Spec.affine (V c main_v31) (V c main_arg4) (V c main_v33))
    (fun t _ => flushed_eq V c t) cover

end Cert.KernelIdeal.Region1

end
-- ==== Proof.Region2.lean ====
import proofs.«167097_j54168127537417_1_alg».proof.Proof.Gen.KernelIdeal.Frame
import proofs.«167097_j54168127537417_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 2: every row of a ten-column array scaled by that row's entry of a one-column array -/

theorem hz : (![0, 0] : Fin 2 → Nat) = fun _ => 0 := funext fun a => by fin_cases a <;> rfl

/-- A one-column array `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload is the row scaling of its two loaded blocks. -/
theorem pay_eq (x0 : Vec Ideal S8000x1 .f32) (x1 : Vec Ideal S8000x10 .f32) :
    k2_pay1 x0 x1 = Cert.Spec.scaleRows x0 x1 := by
  funext j
  obtain ⟨p, q, rfl⟩ : ∃ (p : Fin 8000) (q : Fin 10), j = ix2 p q := ⟨j 0, j 1, eq_ix2 j⟩
  unfold k2_pay1
  refine (mulf_apply _ _ _).trans ?_
  rw [Cert.Spec.scaleRows_apply]
  rw [shapeCast_self, shapeCast_self, shapeCast_self]
  exact congrArg (· * x1 (ix2 p q)) (broadcastTo_a1_ab_apply x0 _ p q)

/-- The printed index maps, decided over the 1280 points: every window's block index is `(t, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The row scaling at an entry depends only on the column's entry of that row and on the scaled entry. -/
theorem scaleRows_congr {E L E' : ℕ} (n : Cert.Spec.Mat E 1) (g : Cert.Spec.Mat E L) (n' : Cert.Spec.Mat E' 1)
    (g' : Cert.Spec.Mat E' L) (i : (⟨2, ![E, L]⟩ : Shape).Idx) (i' : (⟨2, ![E', L]⟩ : Shape).Idx)
    (h0 : n (ix2 (i 0) 0) = n' (ix2 (i' 0) 0)) (h1 : g i = g' i') :
    Cert.Spec.scaleRows n g i = Cert.Spec.scaleRows n' g' i' := by
  show n (ix2 (i 0) 0) * g i = n' (ix2 (i' 0) 0) * g' i'
  rw [h0, h1]

/-- AT ONE ENTRY OF A BLOCK: the row scaling of the two input blocks at point `t`, read at `(p, q)`, is the row scaling
    of the two whole arrays read where the output block's entry `(p, q)` sits. Each block's coordinate on an axis is its
    block index times the block's size plus the coordinate inside the block, and all three windows are at block `(t, 0)`. -/
theorem point_eq (c : Dev nD) (t : Fin cfg2.N) (p : Fin 8000) (q : Fin 10) :
    Cert.Spec.scaleRows (iblk2 V c 0 t : Vec Ideal S8000x1 .f32) (iblk2 V c 1 t : Vec Ideal S8000x10 .f32) (ix2 p q)
      = Cert.Spec.scaleRows (V c main_v42) (V c main_v41) (((cfg2.win 2).blk t).view.emb (ix2 p q)) := by
  obtain ⟨e0, e1, e2, e3, e4, e5⟩ := idx_facts t
  have h0 : ((cfg2.win 0).blk t).view.emb (ix2 p (0 : Fin 1))
      = ix2 ((((cfg2.win 2).blk t).view.emb (ix2 p q)) 0) (0 : Fin 1) := by
    funext a; apply Fin.ext
    match a with
    | ⟨0, _⟩ =>
      show win2_0.index t (0 : Fin 2) * 8000 + 1 * p.val = win2_2.index t (0 : Fin 2) * 8000 + 1 * p.val
      omega
    | ⟨1, _⟩ =>
      show win2_0.index t (1 : Fin 2) * 1 + 1 * 0 = 0
      omega
  have h1 : ((cfg2.win 1).blk t).view.emb (ix2 p q) = ((cfg2.win 2).blk t).view.emb (ix2 p q) := by
    funext a; apply Fin.ext
    match a with
    | ⟨0, _⟩ =>
      show win2_1.index t (0 : Fin 2) * 8000 + 1 * p.val = win2_2.index t (0 : Fin 2) * 8000 + 1 * p.val
      omega
    | ⟨1, _⟩ =>
      show win2_1.index t (1 : Fin 2) * 10 + 1 * q.val = win2_2.index t (1 : Fin 2) * 10 + 1 * q.val
      omega
  refine scaleRows_congr _ _ _ _ _ _ ?_ ?_
  · exact congrArg (V c main_v42) h0
  · exact congrArg (V c main_v41) h1

/-- WHAT POINT `t` WRITES BACK is block `t` of the row scaling of the two input arrays as the region finds them. -/
theorem flushed_eq (c : Dev nD) (t : Fin cfg2.N) :
    (dat2 V c).flushed 2 t
      = ((cfg2.win 2).blk t).view.read (Elt Ideal) (Cert.Spec.scaleRows (V c main_v42) (V c main_v41)) := by
  show (cfg2.win 2).cut (grid2.coords t) ((dat2 V c).after 2 t) = _
  rw [after2_2]
  unfold out2_2
  rw [View.canon_unit_zero hz]
  simp only [View.ld_unit_zero (S := S8000x1) hz, View.ld_unit_zero (S := S8000x10) hz]
  rw [pay_eq]
  funext j
  obtain ⟨p, q, rfl⟩ : ∃ (p : Fin 8000) (q : Fin 10), j = ix2 p q := ⟨j 0, j 1, eq_ix2 j⟩
  exact point_eq V c t p q

/-- An index of the output array is in point `t`'s block iff each coordinate is in the block's range on its axis. -/
theorem mem_blk (t : Fin cfg2.N) (i : S10240000x10.Idx) :
    i ∈ ((cfg2.win 2).blk t).view.set ↔ ∀ a : Fin 2, win2_2.index t a * S8000x10.size a ≤ (i a).val
      ∧ (i a).val < win2_2.index t a * S8000x10.size a + S8000x10.size a := by
  show i ∈ ((View.whole main_v43).slice (win2_2.rect t)).set ↔ _
  rw [View.set_slice_whole, Rect.mem_set_unit]
  exact Iff.rfl

/-- THE BLOCKS TILE THE ARRAY: row `r` lies in the block of point `r / 8000`. -/
theorem cover (i : S10240000x10.Idx) :
    ∃ t : Fin cfg2.N, (cfg2.win 2).flush t = true ∧ i ∈ ((cfg2.win 2).blk t).view.set := by
  have hi0 : (i 0).val < 10240000 := (i 0).isLt
  have hi1 : (i 1).val < 10 := (i 1).isLt
  obtain ⟨t, ht⟩ : ∃ t : Fin cfg2.N, t.val = (i 0).val / 8000 :=
    ⟨⟨(i 0).val / 8000, lt_of_lt_of_eq (by omega : (i 0).val / 8000 < 1280) N_2.symm⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 8000 ≤ (i 0).val ∧ (i 0).val < win2_2.index t (0 : Fin 2) * 8000 + 8000
    omega
  | ⟨1, _⟩ =>
    show win2_2.index t (1 : Fin 2) * 10 ≤ (i 1).val ∧ (i 1).val < win2_2.index t (1 : Fin 2) * 10 + 10
    omega

/-- THE OUTPUT ARRAY after the region: the row scaling of the two input arrays as the region finds them. -/
theorem final2 (c : Dev nD) :
    (dat2 V c).arrAt 2 cfg2.N = Cert.Spec.scaleRows (V c main_v42) (V c main_v41) :=
  (dat2 V c).arrAt_eq_of_cover 2 (Cert.Spec.scaleRows (V c main_v42) (V c main_v41))
    (fun t _ => flushed_eq V c t) cover

end Cert.KernelIdeal.Region2

end
-- ==== Proof.Region3.lean ====
import proofs.«167097_j54168127537417_1_alg».proof.Proof.Gen.KernelIdeal.Frame
import proofs.«167097_j54168127537417_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 3: the positive part of (a + s ⊙ h) + b, the column s scaling the rows of h, the row b added to every row -/

theorem hz : (![0, 0] : Fin 2 → Nat) = fun _ => 0 := funext fun a => by fin_cases a <;> rfl

/-- A one-column array `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload is the positive part of (a + d ⊙ h) + b of its four loaded blocks: the column `d` and the row
    `b` are broadcast to the block's shape, the shape casts are identities, the zero literal is zero. -/
theorem pay_eq (d : Vec Ideal S4000x1 .f32) (b : Vec Ideal S1x10 .f32) (a h : Vec Ideal S4000x10 .f32) :
    k3_pay1 d b a h = Cert.Spec.mixRelu a h d b := by
  funext j
  obtain ⟨p, q, rfl⟩ : ∃ (p : Fin 4000) (q : Fin 10), j = ix2 p q := ⟨j 0, j 1, eq_ix2 j⟩
  unfold k3_pay1
  rw [Cert.Spec.mixRelu_apply]
  rw [shapeCast_self, shapeCast_self, shapeCast_self, shapeCast_self, shapeCast_self, shapeCast_self]
  refine (maximumf_apply _ _ _).trans ?_
  refine congrArg₂ max ?_ Ideal.ofBits_zero_f32
  refine (addf_apply _ _ _).trans ?_
  refine congrArg₂ (· + ·) ?_ (broadcastTo_1b_ab_apply b _ p q)
  refine (addf_apply _ _ _).trans ?_
  refine congrArg (a (ix2 p q) + ·) ?_
  refine (mulf_apply _ _ _).trans ?_
  exact congrArg (· * h (ix2 p q)) (broadcastTo_a1_ab_apply d _ p q)

/-- The printed index maps, decided over the 80 points: the three row-blocked inputs and the output are at block
    `(t, 0)`, the bias row at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The function at an entry depends only on the two full-width operands there, the column's entry of that row and the
    row's entry of that column. -/
theorem mixRelu_congr {N L N' : ℕ} (a h : Cert.Spec.Mat N L) (s : Cert.Spec.Mat N 1) (b : Cert.Spec.Mat 1 L)
    (a' h' : Cert.Spec.Mat N' L) (s' : Cert.Spec.Mat N' 1) (b' : Cert.Spec.Mat 1 L)
    (i : (⟨2, ![N, L]⟩ : Shape).Idx) (i' : (⟨2, ![N', L]⟩ : Shape).Idx)
    (ha : a i = a' i') (hh : h i = h' i') (hs : s (ix2 (i 0) 0) = s' (ix2 (i' 0) 0))
    (hb : b (ix2 0 (i 1)) = b' (ix2 0 (i' 1))) :
    Cert.Spec.mixRelu a h s b i = Cert.Spec.mixRelu a' h' s' b' i' := by
  show max ((a i + s (ix2 (i 0) 0) * h i) + b (ix2 0 (i 1))) 0
    = max ((a' i' + s' (ix2 (i' 0) 0) * h' i') + b' (ix2 0 (i' 1))) 0
  rw [ha, hh, hs, hb]

/-- AT ONE ENTRY OF A BLOCK: the function of the four input blocks at point `t`, read at `(p, q)`, is the function of
    the four whole arrays read where the output block's entry `(p, q)` sits. A block's coordinate on an axis is its block
    index times the block's size plus the coordinate inside the block. -/
theorem point_eq (c : Dev nD) (t : Fin cfg3.N) (p : Fin 4000) (q : Fin 10) :
    Cert.Spec.mixRelu (iblk3 V c 0 t : Vec Ideal S4000x10 .f32) (iblk3 V c 1 t : Vec Ideal S4000x10 .f32)
        (iblk3 V c 2 t : Vec Ideal S4000x1 .f32) (iblk3 V c 3 t : Vec Ideal S1x10 .f32) (ix2 p q)
      = Cert.Spec.mixRelu (V c main_v46) (V c main_v34) (V c main_v14) (V c main_v47)
          (((cfg3.win 4).blk t).view.emb (ix2 p q)) := by
  obtain ⟨e0, e1, e2, e3, e4, e5, e6, e7, e8, e9⟩ := idx_facts t
  have h0 : ((cfg3.win 0).blk t).view.emb (ix2 p q) = ((cfg3.win 4).blk t).view.emb (ix2 p q) := by
    funext a; apply Fin.ext
    match a with
    | ⟨0, _⟩ =>
      show win3_0.index t (0 : Fin 2) * 4000 + 1 * p.val = win3_4.index t (0 : Fin 2) * 4000 + 1 * p.val
      omega
    | ⟨1, _⟩ =>
      show win3_0.index t (1 : Fin 2) * 10 + 1 * q.val = win3_4.index t (1 : Fin 2) * 10 + 1 * q.val
      omega
  have h1 : ((cfg3.win 1).blk t).view.emb (ix2 p q) = ((cfg3.win 4).blk t).view.emb (ix2 p q) := by
    funext a; apply Fin.ext
    match a with
    | ⟨0, _⟩ =>
      show win3_1.index t (0 : Fin 2) * 4000 + 1 * p.val = win3_4.index t (0 : Fin 2) * 4000 + 1 * p.val
      omega
    | ⟨1, _⟩ =>
      show win3_1.index t (1 : Fin 2) * 10 + 1 * q.val = win3_4.index t (1 : Fin 2) * 10 + 1 * q.val
      omega
  have h2 : ((cfg3.win 2).blk t).view.emb (ix2 p (0 : Fin 1))
      = ix2 ((((cfg3.win 4).blk t).view.emb (ix2 p q)) 0) (0 : Fin 1) := by
    funext a; apply Fin.ext
    match a with
    | ⟨0, _⟩ =>
      show win3_2.index t (0 : Fin 2) * 4000 + 1 * p.val = win3_4.index t (0 : Fin 2) * 4000 + 1 * p.val
      omega
    | ⟨1, _⟩ =>
      show win3_2.index t (1 : Fin 2) * 1 + 1 * 0 = 0
      omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ =>
      show win3_3.index t (0 : Fin 2) * 1 + 1 * 0 = 0
      omega
    | ⟨1, _⟩ =>
      show win3_3.index t (1 : Fin 2) * 10 + 1 * q.val = win3_4.index t (1 : Fin 2) * 10 + 1 * q.val
      omega
  refine mixRelu_congr _ _ _ _ _ _ _ _ _ _ ?_ ?_ ?_ ?_
  · exact congrArg (V c main_v46) h0
  · exact congrArg (V c main_v34) h1
  · exact congrArg (V c main_v14) h2
  · exact congrArg (V c main_v47) h3

/-- WHAT POINT `t` WRITES BACK is block `t` of the function of the four input arrays as the region finds them. -/
theorem flushed_eq (c : Dev nD) (t : Fin cfg3.N) :
    (dat3 V c).flushed 4 t
      = ((cfg3.win 4).blk t).view.read (Elt Ideal)
          (Cert.Spec.mixRelu (V c main_v46) (V c main_v34) (V c main_v14) (V c main_v47)) := by
  show (cfg3.win 4).cut (grid3.coords t) ((dat3 V c).after 4 t) = _
  rw [after3_4]
  unfold out3_4
  rw [View.canon_unit_zero hz]
  simp only [View.ld_unit_zero (S := S4000x1) hz, View.ld_unit_zero (S := S1x10) hz,
    View.ld_unit_zero (S := S4000x10) hz]
  rw [pay_eq]
  funext j
  obtain ⟨p, q, rfl⟩ : ∃ (p : Fin 4000) (q : Fin 10), j = ix2 p q := ⟨j 0, j 1, eq_ix2 j⟩
  exact point_eq V c t p q

/-- An index of the output array is in point `t`'s block iff each coordinate is in the block's range on its axis. -/
theorem mem_blk (t : Fin cfg3.N) (i : S320000x10.Idx) :
    i ∈ ((cfg3.win 4).blk t).view.set ↔ ∀ a : Fin 2, win3_4.index t a * S4000x10.size a ≤ (i a).val
      ∧ (i a).val < win3_4.index t a * S4000x10.size a + S4000x10.size a := by
  show i ∈ ((View.whole main_v48).slice (win3_4.rect t)).set ↔ _
  rw [View.set_slice_whole, Rect.mem_set_unit]
  exact Iff.rfl

/-- THE BLOCKS TILE THE ARRAY: row `r` lies in the block of point `r / 4000`. -/
theorem cover (i : S320000x10.Idx) :
    ∃ t : Fin cfg3.N, (cfg3.win 4).flush t = true ∧ i ∈ ((cfg3.win 4).blk t).view.set := by
  have hi0 : (i 0).val < 320000 := (i 0).isLt
  have hi1 : (i 1).val < 10 := (i 1).isLt
  obtain ⟨t, ht⟩ : ∃ t : Fin cfg3.N, t.val = (i 0).val / 4000 :=
    ⟨⟨(i 0).val / 4000, lt_of_lt_of_eq (by omega : (i 0).val / 4000 < 80) N_3.symm⟩, rfl⟩
  obtain ⟨-, -, -, -, -, -, -, -, e8, e9⟩ := idx_facts t
  refine ⟨t, flush3_4 t, ?_⟩
  rw [mem_blk]
  intro a
  match a with
  | ⟨0, _⟩ =>
    show win3_4.index t (0 : Fin 2) * 4000 ≤ (i 0).val ∧ (i 0).val < win3_4.index t (0 : Fin 2) * 4000 + 4000
    omega
  | ⟨1, _⟩ =>
    show win3_4.index t (1 : Fin 2) * 10 ≤ (i 1).val ∧ (i 1).val < win3_4.index t (1 : Fin 2) * 10 + 10
    omega

/-- THE OUTPUT ARRAY after the region: the function of the four input arrays as the region finds them. -/
theorem final3 (c : Dev nD) :
    (dat3 V c).arrAt 4 cfg3.N
      = Cert.Spec.mixRelu (V c main_v46) (V c main_v34) (V c main_v14) (V c main_v47) :=
  (dat3 V c).arrAt_eq_of_cover 4 (Cert.Spec.mixRelu (V c main_v46) (V c main_v34) (V c main_v14) (V c main_v47))
    (fun t _ => flushed_eq V c t) cover

end Cert.KernelIdeal.Region3

end
-- ==== Proof.Region4.lean ====
import proofs.«167097_j54168127537417_1_alg».proof.Proof.Gen.KernelIdeal.Frame
import proofs.«167097_j54168127537417_1_alg».proof.Proof.Spec
import proofs.«167097_j54168127537417_1_alg».proof.Proof.LibPlainDot
import Idealize.ShloMosaic.Lib.Pipeline.Value
import Idealize.ShloMosaic.Lib.ValueIdx
import Idealize.ShloMosaic.Lib.ValueLayout

/-!
  Launch 4 of the program in closed form: the output array after the region is x · w + b of the region's three input
  arrays as the region finds them, at the ideal values (every float an extended real, every operation exact, a change
  of float format the identity).

  The steps: the body's payload is that function of its three loaded blocks; the printed index maps in closed form,
  decided over the grid; what one grid point writes back is its block of that function of the whole arrays; the
  output's blocks tile the output array; so the array ends holding the function.
-/

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The body's payload is the block product plus the bias row: the two format changes are the identity at the ideal
    values, the three shape casts keep the shape, the broadcast repeats the one bias row, and the product accumulated
    into the zero splat is the plain sum over the contraction coordinate. -/
theorem pay_eq (x0 : Vec Ideal S8000x10 .f32) (x1 : Vec Ideal S10x10 .f32) (x2 : Vec Ideal S1x10 .f32) :
    k4_pay1 x0 x1 x2 = Cert.Spec.affine x0 x1 x2 := by
  funext j
  obtain ⟨p, q, rfl⟩ : ∃ (p : Fin 8000) (q : Fin 10), j = ix2 p q := ⟨j 0, j 1, eq_ix2 j⟩
  unfold k4_pay1
  rw [Cert.Spec.affine_apply, addf_apply, shapeCast_self, shapeCast_self, shapeCast_self, broadcastTo_1b_ab_apply]
  refine congrArg₂ (· + ·) ?_ rfl
  exact (Cert.Lib.PlainDot.matmul_zero_apply dot_S8000x10_S10x10_S8000x10_1_0_0_1_n_n rfl rfl rfl rfl rfl rfl none
    (truncf FTy.bf16 x0 bitsLt_bf16_f32) (truncf FTy.bf16 x1 bitsLt_bf16_f32) p q).trans
    (Finset.sum_congr rfl fun k _ => rfl)

/-- The printed index maps, decided over the grid: the row blocks of the left operand and of the output move with the
    point, the right operand and the bias row stay at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of x · w + b, x, w and b the three input arrays as the region finds them. The
    output block's entry (p, q) is array entry (8000 t + p, q); the left operand's block entry (p, k) is array entry
    (8000 t + p, k); the right operand and the bias row are read whole. -/
theorem flushed_eq (c : Dev nD) (t : Fin cfg4.N) :
    (dat4 V c).flushed 3 t = ((cfg4.win 3).blk t).view.read (Elt Ideal)
      (Cert.Spec.affine (V c main_v48) (V c main_arg6) (V c main_v50)) := by
  show (cfg4.win 3).cut (grid4.coords t) ((dat4 V c).after 3 t) = _
  rw [after4_3]
  unfold out4_3
  rw [View.canon_unit_zero hz]
  simp only [View.ld_unit_zero (S := S8000x10) hz, View.ld_unit_zero (S := S10x10) hz, View.ld_unit_zero (S := S1x10) hz]
  rw [pay_eq]
  obtain ⟨e00, e01, e10, e11, e20, e21, e30, e31⟩ := idx_facts t
  have ht : t.val < 40 := t.isLt
  funext j
  obtain ⟨p, q, rfl⟩ : ∃ (p : Fin 8000) (q : Fin 10), j = ix2 p q := ⟨j 0, j 1, eq_ix2 j⟩
  have hrow : t.val * 8000 + p.val < 320000 := by have := p.isLt; omega
  have h3 : ((cfg4.win 3).blk t).view.emb (ix2 p q) = (ix2 (⟨t.val * 8000 + p.val, hrow⟩ : Fin 320000) q : S320000x10.Idx) := by
    funext a; apply Fin.ext
    match a with
    | ⟨0, _⟩ => show win4_3.index t (0 : Fin 2) * 8000 + 1 * p.val = t.val * 8000 + p.val; omega
    | ⟨1, _⟩ => show win4_3.index t (1 : Fin 2) * 10 + 1 * q.val = q.val; omega
  have h0 : ∀ k : Fin 10, ((cfg4.win 0).blk t).view.emb (ix2 p k) = (ix2 (⟨t.val * 8000 + p.val, hrow⟩ : Fin 320000) k : S320000x10.Idx) := by
    intro k; funext a; apply Fin.ext
    match a with
    | ⟨0, _⟩ => show win4_0.index t (0 : Fin 2) * 8000 + 1 * p.val = t.val * 8000 + p.val; omega
    | ⟨1, _⟩ => show win4_0.index t (1 : Fin 2) * 10 + 1 * k.val = k.val; omega
  have h1 : ∀ k : Fin 10, ((cfg4.win 1).blk t).view.emb (ix2 k q) = (ix2 k q : S10x10.Idx) := by
    intro k; funext a; apply Fin.ext
    match a with
    | ⟨0, _⟩ => show win4_1.index t (0 : Fin 2) * 10 + 1 * k.val = k.val; omega
    | ⟨1, _⟩ => show win4_1.index t (1 : Fin 2) * 10 + 1 * q.val = q.val; omega
  have h2 : ((cfg4.win 2).blk t).view.emb (ix2 (0 : Fin 1) q) = (ix2 (0 : Fin 1) q : S1x10.Idx) := by
    funext a; apply Fin.ext
    match a with
    | ⟨0, _⟩ => show win4_2.index t (0 : Fin 2) * 1 + 1 * 0 = 0; omega
    | ⟨1, _⟩ => show win4_2.index t (1 : Fin 2) * 10 + 1 * q.val = q.val; omega
  show Cert.Spec.affine (iblk4 V c 0 t) (iblk4 V c 1 t) (iblk4 V c 2 t) (ix2 p q)
    = Cert.Spec.affine (V c main_v48) (V c main_arg6) (V c main_v50) (((cfg4.win 3).blk t).view.emb (ix2 p q))
  rw [h3, Cert.Spec.affine_apply, Cert.Spec.affine_apply]
  refine congrArg₂ (· + ·) (Finset.sum_congr rfl fun k _ => congrArg₂ (· * ·) ?_ ?_) ?_
  · show V c main_v48 (((cfg4.win 0).blk t).view.emb (ix2 p k)) = _
    rw [h0 k]
  · show V c main_arg6 (((cfg4.win 1).blk t).view.emb (ix2 k q)) = _
    rw [h1 k]
  · show V c main_v50 (((cfg4.win 2).blk t).view.emb (ix2 (0 : Fin 1) q)) = _
    rw [h2]

/-- An index of the output array is in point t's block iff each coordinate is in the block's range on its axis. -/
theorem mem_blk (t : Fin cfg4.N) (i : S320000x10.Idx) :
    i ∈ ((cfg4.win 3).blk t).view.set ↔ ∀ a : Fin 2, win4_3.index t a * S8000x10.size a ≤ (i a).val
      ∧ (i a).val < win4_3.index t a * S8000x10.size a + S8000x10.size a := by
  show i ∈ ((View.whole main_v51).slice (win4_3.rect t)).set ↔ _
  rw [View.set_slice_whole, Rect.mem_set_unit]
  exact Iff.rfl

/-- The output's blocks tile the array: row r lies in the block of point r / 8000, and every point writes back. -/
theorem cover (i : S320000x10.Idx) :
    ∃ t : Fin cfg4.N, (cfg4.win 3).flush t = true ∧ i ∈ ((cfg4.win 3).blk t).view.set := by
  have hi0 : (i 0).val < 320000 := (i 0).isLt
  have hi1 : (i 1).val < 10 := (i 1).isLt
  obtain ⟨t, ht⟩ : ∃ t : Fin cfg4.N, t.val = (i 0).val / 8000 :=
    ⟨⟨(i 0).val / 8000, by show (i 0).val / 8000 < 40; omega⟩, rfl⟩
  obtain ⟨-, -, -, -, -, -, e30, e31⟩ := idx_facts t
  refine ⟨t, flush4_3 t, ?_⟩
  rw [mem_blk]
  intro a
  match a with
  | ⟨0, _⟩ =>
    show win4_3.index t (0 : Fin 2) * 8000 ≤ (i 0).val ∧ (i 0).val < win4_3.index t (0 : Fin 2) * 8000 + 8000
    omega
  | ⟨1, _⟩ =>
    show win4_3.index t (1 : Fin 2) * 10 ≤ (i 1).val ∧ (i 1).val < win4_3.index t (1 : Fin 2) * 10 + 10
    omega

/-- The output array after the region: x · w + b of the three input arrays as the region finds them. -/
theorem final4 (c : Dev nD) :
    (dat4 V c).arrAt 3 cfg4.N = Cert.Spec.affine (V c main_v48) (V c main_arg6) (V c main_v50) :=
  (dat4 V c).arrAt_eq_of_cover 3 (Cert.Spec.affine (V c main_v48) (V c main_arg6) (V c main_v50))
    (fun t _ => flushed_eq V c t) cover

end Cert.KernelIdeal.Region4

end
-- ==== Proof.Region5.lean ====
import proofs.«167097_j54168127537417_1_alg».proof.Proof.Gen.KernelIdeal.Frame
import proofs.«167097_j54168127537417_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 5: every row of a ten-column array scaled by that row's entry of a one-column array -/

theorem hz : (![0, 0] : Fin 2 → Nat) = fun _ => 0 := funext fun a => by fin_cases a <;> rfl

/-- A one-column array `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload is the row scaling of its two loaded blocks. -/
theorem pay_eq (x0 : Vec Ideal S8000x1 .f32) (x1 : Vec Ideal S8000x10 .f32) :
    k5_pay1 x0 x1 = Cert.Spec.scaleRows x0 x1 := by
  funext j
  obtain ⟨p, q, rfl⟩ : ∃ (p : Fin 8000) (q : Fin 10), j = ix2 p q := ⟨j 0, j 1, eq_ix2 j⟩
  unfold k5_pay1
  refine (mulf_apply _ _ _).trans ?_
  rw [Cert.Spec.scaleRows_apply]
  rw [shapeCast_self, shapeCast_self, shapeCast_self]
  exact congrArg (· * x1 (ix2 p q)) (broadcastTo_a1_ab_apply x0 _ p q)

/-- The printed index maps, decided over the 1280 points: every window's block index is `(t, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The row scaling at an entry depends only on the column's entry of that row and on the scaled entry. -/
theorem scaleRows_congr {E L E' : ℕ} (n : Cert.Spec.Mat E 1) (g : Cert.Spec.Mat E L) (n' : Cert.Spec.Mat E' 1)
    (g' : Cert.Spec.Mat E' L) (i : (⟨2, ![E, L]⟩ : Shape).Idx) (i' : (⟨2, ![E', L]⟩ : Shape).Idx)
    (h0 : n (ix2 (i 0) 0) = n' (ix2 (i' 0) 0)) (h1 : g i = g' i') :
    Cert.Spec.scaleRows n g i = Cert.Spec.scaleRows n' g' i' := by
  show n (ix2 (i 0) 0) * g i = n' (ix2 (i' 0) 0) * g' i'
  rw [h0, h1]

/-- AT ONE ENTRY OF A BLOCK: the row scaling of the two input blocks at point `t`, read at `(p, q)`, is the row scaling
    of the two whole arrays read where the output block's entry `(p, q)` sits. Each block's coordinate on an axis is its
    block index times the block's size plus the coordinate inside the block, and all three windows are at block `(t, 0)`. -/
theorem point_eq (c : Dev nD) (t : Fin cfg5.N) (p : Fin 8000) (q : Fin 10) :
    Cert.Spec.scaleRows (iblk5 V c 0 t : Vec Ideal S8000x1 .f32) (iblk5 V c 1 t : Vec Ideal S8000x10 .f32) (ix2 p q)
      = Cert.Spec.scaleRows (V c main_v59) (V c main_v58) (((cfg5.win 2).blk t).view.emb (ix2 p q)) := by
  obtain ⟨e0, e1, e2, e3, e4, e5⟩ := idx_facts t
  have h0 : ((cfg5.win 0).blk t).view.emb (ix2 p (0 : Fin 1))
      = ix2 ((((cfg5.win 2).blk t).view.emb (ix2 p q)) 0) (0 : Fin 1) := by
    funext a; apply Fin.ext
    match a with
    | ⟨0, _⟩ =>
      show win5_0.index t (0 : Fin 2) * 8000 + 1 * p.val = win5_2.index t (0 : Fin 2) * 8000 + 1 * p.val
      omega
    | ⟨1, _⟩ =>
      show win5_0.index t (1 : Fin 2) * 1 + 1 * 0 = 0
      omega
  have h1 : ((cfg5.win 1).blk t).view.emb (ix2 p q) = ((cfg5.win 2).blk t).view.emb (ix2 p q) := by
    funext a; apply Fin.ext
    match a with
    | ⟨0, _⟩ =>
      show win5_1.index t (0 : Fin 2) * 8000 + 1 * p.val = win5_2.index t (0 : Fin 2) * 8000 + 1 * p.val
      omega
    | ⟨1, _⟩ =>
      show win5_1.index t (1 : Fin 2) * 10 + 1 * q.val = win5_2.index t (1 : Fin 2) * 10 + 1 * q.val
      omega
  refine scaleRows_congr _ _ _ _ _ _ ?_ ?_
  · exact congrArg (V c main_v59) h0
  · exact congrArg (V c main_v58) h1

/-- WHAT POINT `t` WRITES BACK is block `t` of the row scaling of the two input arrays as the region finds them. -/
theorem flushed_eq (c : Dev nD) (t : Fin cfg5.N) :
    (dat5 V c).flushed 2 t
      = ((cfg5.win 2).blk t).view.read (Elt Ideal) (Cert.Spec.scaleRows (V c main_v59) (V c main_v58)) := by
  show (cfg5.win 2).cut (grid5.coords t) ((dat5 V c).after 2 t) = _
  rw [after5_2]
  unfold out5_2
  rw [View.canon_unit_zero hz]
  simp only [View.ld_unit_zero (S := S8000x1) hz, View.ld_unit_zero (S := S8000x10) hz]
  rw [pay_eq]
  funext j
  obtain ⟨p, q, rfl⟩ : ∃ (p : Fin 8000) (q : Fin 10), j = ix2 p q := ⟨j 0, j 1, eq_ix2 j⟩
  exact point_eq V c t p q

/-- An index of the output array is in point `t`'s block iff each coordinate is in the block's range on its axis. -/
theorem mem_blk (t : Fin cfg5.N) (i : S10240000x10.Idx) :
    i ∈ ((cfg5.win 2).blk t).view.set ↔ ∀ a : Fin 2, win5_2.index t a * S8000x10.size a ≤ (i a).val
      ∧ (i a).val < win5_2.index t a * S8000x10.size a + S8000x10.size a := by
  show i ∈ ((View.whole main_v60).slice (win5_2.rect t)).set ↔ _
  rw [View.set_slice_whole, Rect.mem_set_unit]
  exact Iff.rfl

/-- THE BLOCKS TILE THE ARRAY: row `r` lies in the block of point `r / 8000`. -/
theorem cover (i : S10240000x10.Idx) :
    ∃ t : Fin cfg5.N, (cfg5.win 2).flush t = true ∧ i ∈ ((cfg5.win 2).blk t).view.set := by
  have hi0 : (i 0).val < 10240000 := (i 0).isLt
  have hi1 : (i 1).val < 10 := (i 1).isLt
  obtain ⟨t, ht⟩ : ∃ t : Fin cfg5.N, t.val = (i 0).val / 8000 :=
    ⟨⟨(i 0).val / 8000, lt_of_lt_of_eq (by omega : (i 0).val / 8000 < 1280) N_5.symm⟩, rfl⟩
  obtain ⟨-, -, -, -, e4, e5⟩ := idx_facts t
  refine ⟨t, flush5_2 t, ?_⟩
  rw [mem_blk]
  intro a
  match a with
  | ⟨0, _⟩ =>
    show win5_2.index t (0 : Fin 2) * 8000 ≤ (i 0).val ∧ (i 0).val < win5_2.index t (0 : Fin 2) * 8000 + 8000
    omega
  | ⟨1, _⟩ =>
    show win5_2.index t (1 : Fin 2) * 10 ≤ (i 1).val ∧ (i 1).val < win5_2.index t (1 : Fin 2) * 10 + 10
    omega

/-- THE OUTPUT ARRAY after the region: the row scaling of the two input arrays as the region finds them. -/
theorem final5 (c : Dev nD) :
    (dat5 V c).arrAt 2 cfg5.N = Cert.Spec.scaleRows (V c main_v59) (V c main_v58) :=
  (dat5 V c).arrAt_eq_of_cover 2 (Cert.Spec.scaleRows (V c main_v59) (V c main_v58))
    (fun t _ => flushed_eq V c t) cover

end Cert.KernelIdeal.Region5

end
-- ==== Proof.Region6.lean ====
import proofs.«167097_j54168127537417_1_alg».proof.Proof.Gen.KernelIdeal.Frame
import proofs.«167097_j54168127537417_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 6: the positive part of (a + s ⊙ h) + b, the column s scaling the rows of h, the row b added to every row -/

theorem hz : (![0, 0] : Fin 2 → Nat) = fun _ => 0 := funext fun a => by fin_cases a <;> rfl

/-- A one-column array `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload is the positive part of (a + d ⊙ h) + b of its four loaded blocks: the column `d` and the row
    `b` are broadcast to the block's shape, the shape casts are identities, the zero literal is zero. -/
theorem pay_eq (d : Vec Ideal S4000x1 .f32) (b : Vec Ideal S1x10 .f32) (a h : Vec Ideal S4000x10 .f32) :
    k6_pay1 d b a h = Cert.Spec.mixRelu a h d b := by
  funext j
  obtain ⟨p, q, rfl⟩ : ∃ (p : Fin 4000) (q : Fin 10), j = ix2 p q := ⟨j 0, j 1, eq_ix2 j⟩
  unfold k6_pay1
  rw [Cert.Spec.mixRelu_apply]
  rw [shapeCast_self, shapeCast_self, shapeCast_self, shapeCast_self, shapeCast_self, shapeCast_self]
  refine (maximumf_apply _ _ _).trans ?_
  refine congrArg₂ max ?_ Ideal.ofBits_zero_f32
  refine (addf_apply _ _ _).trans ?_
  refine congrArg₂ (· + ·) ?_ (broadcastTo_1b_ab_apply b _ p q)
  refine (addf_apply _ _ _).trans ?_
  refine congrArg (a (ix2 p q) + ·) ?_
  refine (mulf_apply _ _ _).trans ?_
  exact congrArg (· * h (ix2 p q)) (broadcastTo_a1_ab_apply d _ p q)

/-- The printed index maps, decided over the 80 points: the three row-blocked inputs and the output are at block
    `(t, 0)`, the bias row at block `(0, 0)`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The function at an entry depends only on the two full-width operands there, the column's entry of that row and the
    row's entry of that column. -/
theorem mixRelu_congr {N L N' : ℕ} (a h : Cert.Spec.Mat N L) (s : Cert.Spec.Mat N 1) (b : Cert.Spec.Mat 1 L)
    (a' h' : Cert.Spec.Mat N' L) (s' : Cert.Spec.Mat N' 1) (b' : Cert.Spec.Mat 1 L)
    (i : (⟨2, ![N, L]⟩ : Shape).Idx) (i' : (⟨2, ![N', L]⟩ : Shape).Idx)
    (ha : a i = a' i') (hh : h i = h' i') (hs : s (ix2 (i 0) 0) = s' (ix2 (i' 0) 0))
    (hb : b (ix2 0 (i 1)) = b' (ix2 0 (i' 1))) :
    Cert.Spec.mixRelu a h s b i = Cert.Spec.mixRelu a' h' s' b' i' := by
  show max ((a i + s (ix2 (i 0) 0) * h i) + b (ix2 0 (i 1))) 0
    = max ((a' i' + s' (ix2 (i' 0) 0) * h' i') + b' (ix2 0 (i' 1))) 0
  rw [ha, hh, hs, hb]

/-- AT ONE ENTRY OF A BLOCK: the function of the four input blocks at point `t`, read at `(p, q)`, is the function of
    the four whole arrays read where the output block's entry `(p, q)` sits. A block's coordinate on an axis is its block
    index times the block's size plus the coordinate inside the block. -/
theorem point_eq (c : Dev nD) (t : Fin cfg6.N) (p : Fin 4000) (q : Fin 10) :
    Cert.Spec.mixRelu (iblk6 V c 0 t : Vec Ideal S4000x10 .f32) (iblk6 V c 1 t : Vec Ideal S4000x10 .f32)
        (iblk6 V c 2 t : Vec Ideal S4000x1 .f32) (iblk6 V c 3 t : Vec Ideal S1x10 .f32) (ix2 p q)
      = Cert.Spec.mixRelu (V c main_v63) (V c main_v51) (V c main_v14) (V c main_v64)
          (((cfg6.win 4).blk t).view.emb (ix2 p q)) := by
  obtain ⟨e0, e1, e2, e3, e4, e5, e6, e7, e8, e9⟩ := idx_facts t
  have h0 : ((cfg6.win 0).blk t).view.emb (ix2 p q) = ((cfg6.win 4).blk t).view.emb (ix2 p q) := by
    funext a; apply Fin.ext
    match a with
    | ⟨0, _⟩ =>
      show win6_0.index t (0 : Fin 2) * 4000 + 1 * p.val = win6_4.index t (0 : Fin 2) * 4000 + 1 * p.val
      omega
    | ⟨1, _⟩ =>
      show win6_0.index t (1 : Fin 2) * 10 + 1 * q.val = win6_4.index t (1 : Fin 2) * 10 + 1 * q.val
      omega
  have h1 : ((cfg6.win 1).blk t).view.emb (ix2 p q) = ((cfg6.win 4).blk t).view.emb (ix2 p q) := by
    funext a; apply Fin.ext
    match a with
    | ⟨0, _⟩ =>
      show win6_1.index t (0 : Fin 2) * 4000 + 1 * p.val = win6_4.index t (0 : Fin 2) * 4000 + 1 * p.val
      omega
    | ⟨1, _⟩ =>
      show win6_1.index t (1 : Fin 2) * 10 + 1 * q.val = win6_4.index t (1 : Fin 2) * 10 + 1 * q.val
      omega
  have h2 : ((cfg6.win 2).blk t).view.emb (ix2 p (0 : Fin 1))
      = ix2 ((((cfg6.win 4).blk t).view.emb (ix2 p q)) 0) (0 : Fin 1) := by
    funext a; apply Fin.ext
    match a with
    | ⟨0, _⟩ =>
      show win6_2.index t (0 : Fin 2) * 4000 + 1 * p.val = win6_4.index t (0 : Fin 2) * 4000 + 1 * p.val
      omega
    | ⟨1, _⟩ =>
      show win6_2.index t (1 : Fin 2) * 1 + 1 * 0 = 0
      omega
  have h3 : ((cfg6.win 3).blk t).view.emb (ix2 (0 : Fin 1) q)
      = ix2 (0 : Fin 1) ((((cfg6.win 4).blk t).view.emb (ix2 p q)) 1) := by
    funext a; apply Fin.ext
    match a with
    | ⟨0, _⟩ =>
      show win6_3.index t (0 : Fin 2) * 1 + 1 * 0 = 0
      omega
    | ⟨1, _⟩ =>
      show win6_3.index t (1 : Fin 2) * 10 + 1 * q.val = win6_4.index t (1 : Fin 2) * 10 + 1 * q.val
      omega
  refine mixRelu_congr _ _ _ _ _ _ _ _ _ _ ?_ ?_ ?_ ?_
  · exact congrArg (V c main_v63) h0
  · exact congrArg (V c main_v51) h1
  · exact congrArg (V c main_v14) h2
  · exact congrArg (V c main_v64) h3

/-- WHAT POINT `t` WRITES BACK is block `t` of the function of the four input arrays as the region finds them. -/
theorem flushed_eq (c : Dev nD) (t : Fin cfg6.N) :
    (dat6 V c).flushed 4 t
      = ((cfg6.win 4).blk t).view.read (Elt Ideal)
          (Cert.Spec.mixRelu (V c main_v63) (V c main_v51) (V c main_v14) (V c main_v64)) := by
  show (cfg6.win 4).cut (grid6.coords t) ((dat6 V c).after 4 t) = _
  rw [after6_4]
  unfold out6_4
  rw [View.canon_unit_zero hz]
  simp only [View.ld_unit_zero (S := S4000x1) hz, View.ld_unit_zero (S := S1x10) hz,
    View.ld_unit_zero (S := S4000x10) hz]
  rw [pay_eq]
  funext j
  obtain ⟨p, q, rfl⟩ : ∃ (p : Fin 4000) (q : Fin 10), j = ix2 p q := ⟨j 0, j 1, eq_ix2 j⟩
  exact point_eq V c t p q

/-- An index of the output array is in point `t`'s block iff each coordinate is in the block's range on its axis. -/
theorem mem_blk (t : Fin cfg6.N) (i : S320000x10.Idx) :
    i ∈ ((cfg6.win 4).blk t).view.set ↔ ∀ a : Fin 2, win6_4.index t a * S4000x10.size a ≤ (i a).val
      ∧ (i a).val < win6_4.index t a * S4000x10.size a + S4000x10.size a := by
  show i ∈ ((View.whole main_v65).slice (win6_4.rect t)).set ↔ _
  rw [View.set_slice_whole, Rect.mem_set_unit]
  exact Iff.rfl

/-- THE BLOCKS TILE THE ARRAY: row `r` lies in the block of point `r / 4000`. -/
theorem cover (i : S320000x10.Idx) :
    ∃ t : Fin cfg6.N, (cfg6.win 4).flush t = true ∧ i ∈ ((cfg6.win 4).blk t).view.set := by
  have hi0 : (i 0).val < 320000 := (i 0).isLt
  have hi1 : (i 1).val < 10 := (i 1).isLt
  obtain ⟨t, ht⟩ : ∃ t : Fin cfg6.N, t.val = (i 0).val / 4000 :=
    ⟨⟨(i 0).val / 4000, lt_of_lt_of_eq (by omega : (i 0).val / 4000 < 80) N_6.symm⟩, rfl⟩
  obtain ⟨-, -, -, -, -, -, -, -, e8, e9⟩ := idx_facts t
  refine ⟨t, flush6_4 t, ?_⟩
  rw [mem_blk]
  intro a
  match a with
  | ⟨0, _⟩ =>
    show win6_4.index t (0 : Fin 2) * 4000 ≤ (i 0).val ∧ (i 0).val < win6_4.index t (0 : Fin 2) * 4000 + 4000
    omega
  | ⟨1, _⟩ =>
    show win6_4.index t (1 : Fin 2) * 10 ≤ (i 1).val ∧ (i 1).val < win6_4.index t (1 : Fin 2) * 10 + 10
    omega

/-- THE OUTPUT ARRAY after the region: the function of the four input arrays as the region finds them. -/
theorem final6 (c : Dev nD) :
    (dat6 V c).arrAt 4 cfg6.N
      = Cert.Spec.mixRelu (V c main_v63) (V c main_v51) (V c main_v14) (V c main_v64) :=
  (dat6 V c).arrAt_eq_of_cover 4 (Cert.Spec.mixRelu (V c main_v63) (V c main_v51) (V c main_v14) (V c main_v64))
    (fun t _ => flushed_eq V c t) cover

end Cert.KernelIdeal.Region6

end
-- ==== Proof.Region7.lean ====
import proofs.«167097_j54168127537417_1_alg».proof.Proof.Gen.KernelIdeal.Frame
import proofs.«167097_j54168127537417_1_alg».proof.Proof.Spec
import proofs.«167097_j54168127537417_1_alg».proof.Proof.LibPlainDot
import Idealize.ShloMosaic.Lib.Pipeline.Value
import Idealize.ShloMosaic.Lib.ValueIdx
import Idealize.ShloMosaic.Lib.ValueLayout

/-!
  Launch 7 of the program in closed form: the output array after the region is x · w + b of the region's three input
  arrays as the region finds them, at the ideal values (every float an extended real, every operation exact, a change
  of float format the identity).

  The steps: the body's payload is that function of its three loaded blocks; the printed index maps in closed form,
  decided over the grid; what one grid point writes back is its block of that function of the whole arrays; the
  output's blocks tile the output array; so the array ends holding the function.
-/

set_option maxRecDepth 16384

noncomputable section

namespace Cert.KernelIdeal.Region7

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The body's payload is the block product plus the bias entry: the two format changes are the identity at the ideal
    values, the three shape casts keep the shape, the broadcast repeats the one bias row, and the product accumulated
    into the zero splat is the plain sum over the contraction coordinate. -/
theorem pay_eq (x0 : Vec Ideal S8000x10 .f32) (x1 : Vec Ideal S10x1 .f32) (x2 : Vec Ideal S1x1 .f32) :
    k7_pay1 x0 x1 x2 = Cert.Spec.affine x0 x1 x2 := by
  funext j
  obtain ⟨p, q, rfl⟩ : ∃ (p : Fin 8000) (q : Fin 1), j = ix2 p q := ⟨j 0, j 1, eq_ix2 j⟩
  unfold k7_pay1
  rw [Cert.Spec.affine_apply, addf_apply, shapeCast_self, shapeCast_self, shapeCast_self, broadcastTo_1b_ab_apply]
  refine congrArg₂ (· + ·) ?_ rfl
  exact (Cert.Lib.PlainDot.matmul_zero_apply dot_S8000x10_S10x1_S8000x1_1_0_0_1_n_n rfl rfl rfl rfl rfl rfl none
    (truncf FTy.bf16 x0 bitsLt_bf16_f32) (truncf FTy.bf16 x1 bitsLt_bf16_f32) p q).trans
    (Finset.sum_congr rfl fun k _ => rfl)

/-- The printed index maps, decided over the grid: the row blocks of the left operand and of the output move with the
    point, the right operand and the bias entry stay at block (0, 0). -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of x · w + b, x, w and b the three input arrays as the region finds them. The
    output block's entry (p, q) is array entry (8000 t + p, q); the left operand's block entry (p, k) is array entry
    (8000 t + p, k); the right operand and the bias entry are read whole. -/
theorem flushed_eq (c : Dev nD) (t : Fin cfg7.N) :
    (dat7 V c).flushed 3 t = ((cfg7.win 3).blk t).view.read (Elt Ideal)
      (Cert.Spec.affine (V c main_v65) (V c main_arg8) (V c main_v66)) := by
  show (cfg7.win 3).cut (grid7.coords t) ((dat7 V c).after 3 t) = _
  rw [after7_3]
  unfold out7_3
  rw [View.canon_unit_zero hz]
  simp only [View.ld_unit_zero (S := S8000x10) hz, View.ld_unit_zero (S := S10x1) hz, View.ld_unit_zero (S := S1x1) hz]
  rw [pay_eq]
  obtain ⟨e00, e01, e10, e11, e20, e21, e30, e31⟩ := idx_facts t
  have ht : t.val < 40 := t.isLt
  funext j
  obtain ⟨p, q, rfl⟩ : ∃ (p : Fin 8000) (q : Fin 1), j = ix2 p q := ⟨j 0, j 1, eq_ix2 j⟩
  have hrow : t.val * 8000 + p.val < 320000 := by have := p.isLt; omega
  have h3 : ((cfg7.win 3).blk t).view.emb (ix2 p q) = (ix2 (⟨t.val * 8000 + p.val, hrow⟩ : Fin 320000) q : S320000x1.Idx) := by
    funext a; apply Fin.ext
    match a with
    | ⟨0, _⟩ => show win7_3.index t (0 : Fin 2) * 8000 + 1 * p.val = t.val * 8000 + p.val; omega
    | ⟨1, _⟩ => show win7_3.index t (1 : Fin 2) * 1 + 1 * q.val = q.val; omega
  have h0 : ∀ k : Fin 10, ((cfg7.win 0).blk t).view.emb (ix2 p k) = (ix2 (⟨t.val * 8000 + p.val, hrow⟩ : Fin 320000) k : S320000x10.Idx) := by
    intro k; funext a; apply Fin.ext
    match a with
    | ⟨0, _⟩ => show win7_0.index t (0 : Fin 2) * 8000 + 1 * p.val = t.val * 8000 + p.val; omega
    | ⟨1, _⟩ => show win7_0.index t (1 : Fin 2) * 10 + 1 * k.val = k.val; omega
  have h1 : ∀ k : Fin 10, ((cfg7.win 1).blk t).view.emb (ix2 k q) = (ix2 k q : S10x1.Idx) := by
    intro k; funext a; apply Fin.ext
    match a with
    | ⟨0, _⟩ => show win7_1.index t (0 : Fin 2) * 10 + 1 * k.val = k.val; omega
    | ⟨1, _⟩ => show win7_1.index t (1 : Fin 2) * 1 + 1 * q.val = q.val; omega
  have h2 : ((cfg7.win 2).blk t).view.emb (ix2 (0 : Fin 1) q) = (ix2 (0 : Fin 1) q : S1x1.Idx) := by
    funext a; apply Fin.ext
    match a with
    | ⟨0, _⟩ => show win7_2.index t (0 : Fin 2) * 1 + 1 * 0 = 0; omega
    | ⟨1, _⟩ => show win7_2.index t (1 : Fin 2) * 1 + 1 * q.val = q.val; omega
  show Cert.Spec.affine (iblk7 V c 0 t) (iblk7 V c 1 t) (iblk7 V c 2 t) (ix2 p q)
    = Cert.Spec.affine (V c main_v65) (V c main_arg8) (V c main_v66) (((cfg7.win 3).blk t).view.emb (ix2 p q))
  rw [h3, Cert.Spec.affine_apply, Cert.Spec.affine_apply]
  refine congrArg₂ (· + ·) (Finset.sum_congr rfl fun k _ => congrArg₂ (· * ·) ?_ ?_) ?_
  · show V c main_v65 (((cfg7.win 0).blk t).view.emb (ix2 p k)) = _
    rw [h0 k]
  · show V c main_arg8 (((cfg7.win 1).blk t).view.emb (ix2 k q)) = _
    rw [h1 k]
  · show V c main_v66 (((cfg7.win 2).blk t).view.emb (ix2 (0 : Fin 1) q)) = _
    rw [h2]

/-- An index of the output array is in point t's block iff each coordinate is in the block's range on its axis. -/
theorem mem_blk (t : Fin cfg7.N) (i : S320000x1.Idx) :
    i ∈ ((cfg7.win 3).blk t).view.set ↔ ∀ a : Fin 2, win7_3.index t a * S8000x1.size a ≤ (i a).val
      ∧ (i a).val < win7_3.index t a * S8000x1.size a + S8000x1.size a := by
  show i ∈ ((View.whole main_v67).slice (win7_3.rect t)).set ↔ _
  rw [View.set_slice_whole, Rect.mem_set_unit]
  exact Iff.rfl

/-- The output's blocks tile the array: row r lies in the block of point r / 8000, and every point writes back. -/
theorem cover (i : S320000x1.Idx) :
    ∃ t : Fin cfg7.N, (cfg7.win 3).flush t = true ∧ i ∈ ((cfg7.win 3).blk t).view.set := by
  have hi0 : (i 0).val < 320000 := (i 0).isLt
  have hi1 : (i 1).val < 1 := (i 1).isLt
  obtain ⟨t, ht⟩ : ∃ t : Fin cfg7.N, t.val = (i 0).val / 8000 :=
    ⟨⟨(i 0).val / 8000, by show (i 0).val / 8000 < 40; omega⟩, rfl⟩
  obtain ⟨-, -, -, -, -, -, e30, e31⟩ := idx_facts t
  refine ⟨t, flush7_3 t, ?_⟩
  rw [mem_blk]
  intro a
  match a with
  | ⟨0, _⟩ =>
    show win7_3.index t (0 : Fin 2) * 8000 ≤ (i 0).val ∧ (i 0).val < win7_3.index t (0 : Fin 2) * 8000 + 8000
    omega
  | ⟨1, _⟩ =>
    show win7_3.index t (1 : Fin 2) * 1 ≤ (i 1).val ∧ (i 1).val < win7_3.index t (1 : Fin 2) * 1 + 1
    omega

/-- The output array after the region: x · w + b of the three input arrays as the region finds them. -/
theorem final7 (c : Dev nD) :
    (dat7 V c).arrAt 3 cfg7.N = Cert.Spec.affine (V c main_v65) (V c main_arg8) (V c main_v66) :=
  (dat7 V c).arrAt_eq_of_cover 3 (Cert.Spec.affine (V c main_v65) (V c main_arg8) (V c main_v66))
    (fun t _ => flushed_eq V c t) cover

end Cert.KernelIdeal.Region7

end
-- ==== Proof.Thread.lean ====
import proofs.«167097_j54168127537417_1_alg».proof.Proof.Gen.KernelIdeal.Frame
import proofs.«167097_j54168127537417_1_alg».proof.Proof.Chain
import proofs.«167097_j54168127537417_1_alg».proof.Proof.Spec
import proofs.«167097_j54168127537417_1_alg».proof.Proof.Region0
import proofs.«167097_j54168127537417_1_alg».proof.Proof.Region1
import proofs.«167097_j54168127537417_1_alg».proof.Proof.Region2
import proofs.«167097_j54168127537417_1_alg».proof.Proof.Region3
import proofs.«167097_j54168127537417_1_alg».proof.Proof.Region4
import proofs.«167097_j54168127537417_1_alg».proof.Proof.Region5
import proofs.«167097_j54168127537417_1_alg».proof.Proof.Region6
import proofs.«167097_j54168127537417_1_alg».proof.Proof.Region7
import Idealize.ShloMosaic.Lib.StableHlo.Run
import Idealize.ShloMosaic.Lib.Pipeline.Value
import Idealize.ShloMosaic.Lib.ValueIdx
import Idealize.ShloMosaic.Lib.ValueLayout

/-!
  The kernel program's result, threaded through its run.

  @main is nine stretches of host operations with the eight launches between them. The contents of every buffer at each
  of the seventeen boundaries are a fold from the launch memory: a stretch applies its operations, a launch leaves its
  output array at what its write-backs produce and everything else as entered. Reading that fold back at the result
  buffer: a launch's output is, by the per-launch closed forms, one whole-array function of its operands as the launch
  finds them; an operand is either computed by the stretch just before, or has been kept unchanged since an earlier
  boundary (no operation in between writes it; where it is an input window of a launch in between, it is staged and never
  written back). What comes out is `Cert.Chain.net` of the ten arguments as launched.

  The bias rows and the weight columns reach the launches as vectors reshaped to one row or one column; the layers'
  zero bias is the zero vector reshaped to a row.
-/

set_option maxRecDepth 16384

noncomputable section

namespace Cert.KernelIdeal.Thread

open Cert.KernelIdeal Cert.KernelIdeal.Gen Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg) (c : Dev nD)

/-! ## The launch contents of the ten arguments -/

abbrev a0 := m ((c : Thread nD τ).loc main_arg0)
abbrev ed := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)

/-! ## A vector reshaped to one row or one column -/

/-- A vector cast to a one-row matrix reads, at (0, q), the vector's entry q. -/
theorem shapeCast_row {N : Nat} (x : (⟨1, ![N]⟩ : Shape).Idx → EReal) (h : (⟨1, ![N]⟩ : Shape).ShapeCasts ⟨2, ![1, N]⟩) :
    shapeCast ⟨2, ![1, N]⟩ x h = Cert.Chain.rowOf x := by
  funext j
  refine (shapeCast_apply x h j (ix1 (j 1)) ?_).trans rfl
  rw [Shape.rowMajor_val_one, Shape.rowMajor_val_two]
  have h0 : (j 0).val = 0 := by have : (j 0).val < 1 := (j 0).isLt; omega
  show (j 1).val = (j 0).val * N + (j 1).val
  rw [h0, Nat.zero_mul, Nat.zero_add]

/-- A vector cast to a one-column matrix reads, at (p, 0), the vector's entry p. -/
theorem shapeCast_col {N : Nat} (x : (⟨1, ![N]⟩ : Shape).Idx → EReal) (h : (⟨1, ![N]⟩ : Shape).ShapeCasts ⟨2, ![N, 1]⟩) :
    shapeCast ⟨2, ![N, 1]⟩ x h = Cert.Chain.colOf x := by
  funext j
  refine (shapeCast_apply x h j (ix1 (j 0)) ?_).trans rfl
  rw [Shape.rowMajor_val_one, Shape.rowMajor_val_two]
  have h1 : (j 1).val = 0 := by have : (j 1).val < 1 := (j 1).isLt; omega
  show (j 0).val = (j 0).val * 1 + (j 1).val
  omega

/-- The zero vector cast to a row is the zero row. -/
theorem zeroRow_cast :
    shapeCast S1x10 (broadcastInDim S10 ![] bcast_S_S10 (constant (F := Ideal) S_ .f32 0x00000000#32)) shapeCasts_S10_S1x10
      = Cert.Chain.zeroRow 10 := by
  refine (shapeCast_row (N := 10) _ _).trans ?_
  funext j
  show broadcastInDim S10 ![] bcast_S_S10 (constant (F := Ideal) S_ .f32 0x00000000#32) (ix1 (j 1)) = 0
  refine (broadcastInDim_apply _ bcast_S_S10 _ _ ix0 (fun a => a.elim0)).trans ?_
  exact Ideal.ofBits_zero_f32

/-! ## A buffer that a stretch of host operations, or a region, does not write keeps its contents -/

theorem keep2 (b : Ref sig .tc) (hb : ∀ w, Pipeline.arrRef spec0 w ≠ b) :
    W2 m ρ c (no_index (Proc.devRef .tc b)) = W1 m ρ c (Proc.devRef .tc b) := W2_of_ne m ρ c b hb
theorem keep4 (b : Ref sig .tc) (hb : ∀ w, Pipeline.arrRef spec1 w ≠ b) :
    W4 m ρ c (no_index (Proc.devRef .tc b)) = W3 m ρ c (Proc.devRef .tc b) := W4_of_ne m ρ c b hb
theorem keep6 (b : Ref sig .tc) (hb : ∀ w, Pipeline.arrRef spec2 w ≠ b) :
    W6 m ρ c (no_index (Proc.devRef .tc b)) = W5 m ρ c (Proc.devRef .tc b) := W6_of_ne m ρ c b hb
theorem keep8 (b : Ref sig .tc) (hb : ∀ w, Pipeline.arrRef spec3 w ≠ b) :
    W8 m ρ c (no_index (Proc.devRef .tc b)) = W7 m ρ c (Proc.devRef .tc b) := W8_of_ne m ρ c b hb
theorem keep10 (b : Ref sig .tc) (hb : ∀ w, Pipeline.arrRef spec4 w ≠ b) :
    W10 m ρ c (no_index (Proc.devRef .tc b)) = W9 m ρ c (Proc.devRef .tc b) := W10_of_ne m ρ c b hb
theorem keep12 (b : Ref sig .tc) (hb : ∀ w, Pipeline.arrRef spec5 w ≠ b) :
    W12 m ρ c (no_index (Proc.devRef .tc b)) = W11 m ρ c (Proc.devRef .tc b) := W12_of_ne m ρ c b hb
theorem keep14 (b : Ref sig .tc) (hb : ∀ w, Pipeline.arrRef spec6 w ≠ b) :
    W14 m ρ c (no_index (Proc.devRef .tc b)) = W13 m ρ c (Proc.devRef .tc b) := W14_of_ne m ρ c b hb
theorem keep16 (b : Ref sig .tc) (hb : ∀ w, Pipeline.arrRef spec7 w ≠ b) :
    W16 m ρ c (no_index (Proc.devRef .tc b)) = W15 m ρ c (Proc.devRef .tc b) := W16_of_ne m ρ c b hb

/-- The self-loop column is an INPUT window of the first finalize region: staged, never written back. -/
theorem keep8_v14 : W8 m ρ c (no_index (Proc.devRef .tc main_v14)) = W7 m ρ c (Proc.devRef .tc main_v14) :=
  (W8_arr m ρ c 2).trans (((dat3 (V7 m ρ) c).arrAt_in 2 rfl _).trans (A_eq3 (V7 m ρ) c 2))

/-- Walk a buffer's contents back through the boundaries after region 0's entry, as far as something writes it. -/
macro "walk" : tactic =>
  `(tactic| simp (disch := decide) only [W3, W5, W7, W9, W11, W13, W15, W17,
      hostOps1, hostOps2, hostOps3, hostOps4, hostOps5, hostOps6, hostOps7, hostOps8,
      StableHlo.after_cons, StableHlo.after_nil,
      StableHlo.nullary_result_ne', StableHlo.unary_result_ne', StableHlo.binary_result_ne', StableHlo.ternary_result_ne',
      StableHlo.reshape_result_ne',
      keep2, keep4, keep6, keep8, keep10, keep12, keep14, keep16, keep8_v14])

/-- The same, and through the first stretch to the launch contents. -/
macro "walk0" : tactic =>
  `(tactic| simp (disch := decide) only [W1, W3, W5, W7, W9, W11, W13, W15, W17,
      hostOps0, hostOps1, hostOps2, hostOps3, hostOps4, hostOps5, hostOps6, hostOps7, hostOps8,
      StableHlo.after_cons, StableHlo.after_nil,
      StableHlo.nullary_result_ne', StableHlo.unary_result_ne', StableHlo.binary_result_ne', StableHlo.ternary_result_ne',
      StableHlo.reshape_result_ne',
      keep2, keep4, keep6, keep8, keep10, keep12, keep14, keep16, keep8_v14])

/-! ## After the first stretch: what comes from the edge list, and region 0's operands -/

theorem w1_v1 : W1 m ρ c (Proc.devRef .tc main_v1) = Cert.Chain.src (ed m c) := by
  show StableHlo.after hostOps0 (W0 m ρ c) _ = _
  after_results_simp
  rfl

theorem w1_v3 : W1 m ρ c (Proc.devRef .tc main_v3) = Cert.Chain.dst (ed m c) := by
  show StableHlo.after hostOps0 (W0 m ρ c) _ = _
  after_results_simp
  rfl

theorem w1_v29 : W1 m ρ c (Proc.devRef .tc main_v29) = Cert.Chain.nrm (ed m c) := by
  show StableHlo.after hostOps0 (W0 m ρ c) _ = _
  after_results_simp
  rfl

theorem w1_v14 : W1 m ρ c (Proc.devRef .tc main_v14) = Cert.Chain.colOf (Cert.Chain.selfCoef (ed m c)) := by
  refine Eq.trans (b := shapeCast S320000x1 (Cert.Chain.selfCoef (ed m c)) shapeCasts_S320000_S320000x1) ?_ (shapeCast_col _ _)
  show StableHlo.after hostOps0 (W0 m ρ c) _ = _
  after_results_simp
  rfl

theorem w1_v30 : W1 m ρ c (Proc.devRef .tc main_v30) = Cert.Chain.rowOf (a3 m c) := by
  refine Eq.trans (b := shapeCast S1x10 (a3 m c) shapeCasts_S10_S1x10) ?_ (shapeCast_row _ _)
  show StableHlo.after hostOps0 (W0 m ρ c) _ = _
  after_results_simp
  rfl

theorem w1_arg0 : W1 m ρ c (Proc.devRef .tc main_arg0) = a0 m c := by walk0
theorem w1_arg2 : W1 m ρ c (Proc.devRef .tc main_arg2) = a2 m c := by walk0

/-! ## Region 0: the input layer -/

theorem w2_v31 : W2 m ρ c (Proc.devRef .tc main_v31) = Cert.Chain.inLayer (a0 m c) (a2 m c) (a3 m c) := by
  refine (W2_arr m ρ c 3).trans ((Region0.final0 (V1 m ρ) c).trans ?_)
  show Cert.Spec.affineRelu (W1 m ρ c (Proc.devRef .tc main_arg0)) (W1 m ρ c (Proc.devRef .tc main_arg2))
    (W1 m ρ c (Proc.devRef .tc main_v30)) = _
  rw [w1_arg0, w1_arg2, w1_v30]
  rfl

/-! ## Region 1: the first layer's features times weights -/

theorem w3_v31 : W3 m ρ c (Proc.devRef .tc main_v31) = Cert.Chain.inLayer (a0 m c) (a2 m c) (a3 m c) := by
  walk; exact w2_v31 m ρ c
theorem w3_arg4 : W3 m ρ c (Proc.devRef .tc main_arg4) = a4 m c := by walk0
theorem w3_v33 : W3 m ρ c (Proc.devRef .tc main_v33) = Cert.Chain.zeroRow 10 := by
  refine Eq.trans ?_ zeroRow_cast
  show StableHlo.after hostOps1 (W2 m ρ c) _ = _
  after_results_simp
  rfl

theorem w4_v34 : W4 m ρ c (Proc.devRef .tc main_v34)
    = Cert.Chain.lin (Cert.Chain.inLayer (a0 m c) (a2 m c) (a3 m c)) (a4 m c) := by
  refine (W4_arr m ρ c 3).trans ((Region1.final1 (V3 m ρ) c).trans ?_)
  show Cert.Spec.affine (W3 m ρ c (Proc.devRef .tc main_v31)) (W3 m ρ c (Proc.devRef .tc main_arg4))
    (W3 m ρ c (Proc.devRef .tc main_v33)) = _
  rw [w3_v31, w3_arg4, w3_v33]
  rfl

/-! ## Region 2: the first layer's weighted edge rows -/

/-- The first layer's features times weights, as a function of the arguments. -/
abbrev lin1 := Cert.Chain.lin (Cert.Chain.inLayer (a0 m c) (a2 m c) (a3 m c)) (a4 m c)

theorem w4_v1 : W4 m ρ c (Proc.devRef .tc main_v1) = Cert.Chain.src (ed m c) := by walk; exact w1_v1 m ρ c
theorem w4_v29 : W4 m ρ c (Proc.devRef .tc main_v29) = Cert.Chain.nrm (ed m c) := by walk; exact w1_v29 m ρ c

theorem w5_v42 : W5 m ρ c (Proc.devRef .tc main_v42) = Cert.Chain.colOf (Cert.Chain.nrm (ed m c)) := by
  refine Eq.trans (b := shapeCast S10240000x1 (Cert.Chain.nrm (ed m c)) shapeCasts_S10240000_S10240000x1) ?_ (shapeCast_col _ _)
  show StableHlo.after hostOps2 (W4 m ρ c) _ = _
  after_results_simp
  rw [w4_v29]
  rfl

theorem w5_v41 : W5 m ρ c (Proc.devRef .tc main_v41) = Cert.Chain.gatherRows (lin1 m c) (ed m c) := by
  show StableHlo.after hostOps2 (W4 m ρ c) _ = _
  after_results_simp
  rw [w4_v34, w4_v1]
  rfl

theorem w6_v43 : W6 m ρ c (Proc.devRef .tc main_v43) = Cert.Chain.msgs (lin1 m c) (ed m c) := by
  refine (W6_arr m ρ c 2).trans ((Region2.final2 (V5 m ρ) c).trans ?_)
  show Cert.Spec.scaleRows (W5 m ρ c (Proc.devRef .tc main_v42)) (W5 m ρ c (Proc.devRef .tc main_v41)) = _
  rw [w5_v42, w5_v41]
  rfl

/-! ## Region 3: the first layer's output -/

theorem w6_v3 : W6 m ρ c (Proc.devRef .tc main_v3) = Cert.Chain.dst (ed m c) := by walk; exact w1_v3 m ρ c
theorem w6_arg5 : W6 m ρ c (Proc.devRef .tc main_arg5) = a5 m c := by walk0

theorem w7_v46 : W7 m ρ c (Proc.devRef .tc main_v46) = Cert.Chain.scatterCols (Cert.Chain.msgs (lin1 m c) (ed m c)) (ed m c) := by
  show StableHlo.after hostOps3 (W6 m ρ c) _ = _
  after_results_simp
  rw [w6_v3, w6_v43]
  rfl

theorem w7_v34 : W7 m ρ c (Proc.devRef .tc main_v34) = lin1 m c := by walk; exact w4_v34 m ρ c
theorem w7_v14 : W7 m ρ c (Proc.devRef .tc main_v14) = Cert.Chain.colOf (Cert.Chain.selfCoef (ed m c)) := by
  walk; exact w1_v14 m ρ c

theorem w7_v47 : W7 m ρ c (Proc.devRef .tc main_v47) = Cert.Chain.rowOf (a5 m c) := by
  refine Eq.trans (b := shapeCast S1x10 (a5 m c) shapeCasts_S10_S1x10) ?_ (shapeCast_row _ _)
  show StableHlo.after hostOps3 (W6 m ρ c) _ = _
  after_results_simp
  rw [w6_arg5]
  rfl

/-- The first layer's output, as a function of the arguments. -/
abbrev h1 := Cert.Chain.layer (Cert.Chain.inLayer (a0 m c) (a2 m c) (a3 m c)) (a4 m c) (a5 m c) (ed m c)

theorem w8_v48 : W8 m ρ c (Proc.devRef .tc main_v48) = h1 m c := by
  refine (W8_arr m ρ c 4).trans ((Region3.final3 (V7 m ρ) c).trans ?_)
  show Cert.Spec.mixRelu (W7 m ρ c (Proc.devRef .tc main_v46)) (W7 m ρ c (Proc.devRef .tc main_v34))
    (W7 m ρ c (Proc.devRef .tc main_v14)) (W7 m ρ c (Proc.devRef .tc main_v47)) = _
  rw [w7_v46, w7_v34, w7_v14, w7_v47]
  rfl

/-! ## Region 4: the second layer's features times weights -/

theorem w9_v48 : W9 m ρ c (Proc.devRef .tc main_v48) = h1 m c := by walk; exact w8_v48 m ρ c
theorem w9_arg6 : W9 m ρ c (Proc.devRef .tc main_arg6) = a6 m c := by walk0
theorem w9_v50 : W9 m ρ c (Proc.devRef .tc main_v50) = Cert.Chain.zeroRow 10 := by
  refine Eq.trans ?_ zeroRow_cast
  show StableHlo.after hostOps4 (W8 m ρ c) _ = _
  after_results_simp
  rfl

/-- The second layer's features times weights. -/
abbrev lin2 := Cert.Chain.lin (h1 m c) (a6 m c)

theorem w10_v51 : W10 m ρ c (Proc.devRef .tc main_v51) = lin2 m c := by
  refine (W10_arr m ρ c 3).trans ((Region4.final4 (V9 m ρ) c).trans ?_)
  show Cert.Spec.affine (W9 m ρ c (Proc.devRef .tc main_v48)) (W9 m ρ c (Proc.devRef .tc main_arg6))
    (W9 m ρ c (Proc.devRef .tc main_v50)) = _
  rw [w9_v48, w9_arg6, w9_v50]
  rfl

/-! ## Region 5: the second layer's weighted edge rows -/

theorem w10_v1 : W10 m ρ c (Proc.devRef .tc main_v1) = Cert.Chain.src (ed m c) := by walk; exact w1_v1 m ρ c
theorem w10_v29 : W10 m ρ c (Proc.devRef .tc main_v29) = Cert.Chain.nrm (ed m c) := by walk; exact w1_v29 m ρ c

theorem w11_v59 : W11 m ρ c (Proc.devRef .tc main_v59) = Cert.Chain.colOf (Cert.Chain.nrm (ed m c)) := by
  refine Eq.trans (b := shapeCast S10240000x1 (Cert.Chain.nrm (ed m c)) shapeCasts_S10240000_S10240000x1) ?_ (shapeCast_col _ _)
  show StableHlo.after hostOps5 (W10 m ρ c) _ = _
  after_results_simp
  rw [w10_v29]
  rfl

theorem w11_v58 : W11 m ρ c (Proc.devRef .tc main_v58) = Cert.Chain.gatherRows (lin2 m c) (ed m c) := by
  show StableHlo.after hostOps5 (W10 m ρ c) _ = _
  after_results_simp
  rw [w10_v51, w10_v1]
  rfl

theorem w12_v60 : W12 m ρ c (Proc.devRef .tc main_v60) = Cert.Chain.msgs (lin2 m c) (ed m c) := by
  refine (W12_arr m ρ c 2).trans ((Region5.final5 (V11 m ρ) c).trans ?_)
  show Cert.Spec.scaleRows (W11 m ρ c (Proc.devRef .tc main_v59)) (W11 m ρ c (Proc.devRef .tc main_v58)) = _
  rw [w11_v59, w11_v58]
  rfl

/-! ## Region 6: the second layer's output -/

theorem w12_v3 : W12 m ρ c (Proc.devRef .tc main_v3) = Cert.Chain.dst (ed m c) := by walk; exact w1_v3 m ρ c
theorem w12_arg7 : W12 m ρ c (Proc.devRef .tc main_arg7) = a7 m c := by walk0

theorem w13_v63 : W13 m ρ c (Proc.devRef .tc main_v63) = Cert.Chain.scatterCols (Cert.Chain.msgs (lin2 m c) (ed m c)) (ed m c) := by
  show StableHlo.after hostOps6 (W12 m ρ c) _ = _
  after_results_simp
  rw [w12_v3, w12_v60]
  rfl

theorem w13_v51 : W13 m ρ c (Proc.devRef .tc main_v51) = lin2 m c := by walk; exact w10_v51 m ρ c
theorem w13_v14 : W13 m ρ c (Proc.devRef .tc main_v14) = Cert.Chain.colOf (Cert.Chain.selfCoef (ed m c)) := by
  walk; exact w1_v14 m ρ c

theorem w13_v64 : W13 m ρ c (Proc.devRef .tc main_v64) = Cert.Chain.rowOf (a7 m c) := by
  refine Eq.trans (b := shapeCast S1x10 (a7 m c) shapeCasts_S10_S1x10) ?_ (shapeCast_row _ _)
  show StableHlo.after hostOps6 (W12 m ρ c) _ = _
  after_results_simp
  rw [w12_arg7]
  rfl

/-- The second layer's output. -/
abbrev h2 := Cert.Chain.layer (h1 m c) (a6 m c) (a7 m c) (ed m c)

theorem w14_v65 : W14 m ρ c (Proc.devRef .tc main_v65) = h2 m c := by
  refine (W14_arr m ρ c 4).trans ((Region6.final6 (V13 m ρ) c).trans ?_)
  show Cert.Spec.mixRelu (W13 m ρ c (Proc.devRef .tc main_v63)) (W13 m ρ c (Proc.devRef .tc main_v51))
    (W13 m ρ c (Proc.devRef .tc main_v14)) (W13 m ρ c (Proc.devRef .tc main_v64)) = _
  rw [w13_v63, w13_v51, w13_v14, w13_v64]
  rfl

/-! ## Region 7: the output layer, and the result -/

theorem w15_v65 : W15 m ρ c (Proc.devRef .tc main_v65) = h2 m c := by walk; exact w14_v65 m ρ c
theorem w15_arg8 : W15 m ρ c (Proc.devRef .tc main_arg8) = a8 m c := by walk0
theorem w14_arg9 : W14 m ρ c (Proc.devRef .tc main_arg9) = a9 m c := by walk0

theorem w15_v66 : W15 m ρ c (Proc.devRef .tc main_v66) = Cert.Chain.rowOf (a9 m c) := by
  refine Eq.trans (b := shapeCast S1x1 (a9 m c) shapeCasts_S1_S1x1) ?_ (shapeCast_row _ _)
  show StableHlo.after hostOps7 (W14 m ρ c) _ = _
  after_results_simp
  rw [w14_arg9]
  rfl

theorem w16_v67 : W16 m ρ c (Proc.devRef .tc main_v67) = Cert.Chain.outLayer (h2 m c) (a8 m c) (a9 m c) := by
  refine (W16_arr m ρ c 3).trans ((Region7.final7 (V15 m ρ) c).trans ?_)
  show Cert.Spec.affine (W15 m ρ c (Proc.devRef .tc main_v65)) (W15 m ρ c (Proc.devRef .tc main_arg8))
    (W15 m ρ c (Proc.devRef .tc main_v66)) = _
  rw [w15_v65, w15_arg8, w15_v66]
  rfl

/-- THE RESULT: after the last stretch the result buffer holds the network of the ten arguments as launched. -/
theorem result : W17 m ρ c (Proc.devRef .tc main_v68)
    = Cert.Chain.net (a0 m c) (ed m c) (a2 m c) (a3 m c) (a4 m c) (a5 m c) (a6 m c) (a7 m c) (a8 m c) (a9 m c) := by
  show StableHlo.after hostOps8 (W16 m ρ c) _ = _
  after_results_simp
  rw [w16_v67]
  rfl

end Cert.KernelIdeal.Thread

end
-- ==== Proof.RefChain.lean ====
import proofs.«167097_j54168127537417_1_alg».proof.Proof.Gen.ReferenceIdeal.Read
import proofs.«167097_j54168127537417_1_alg».proof.Proof.Gen.KernelIdeal
import proofs.«167097_j54168127537417_1_alg».proof.Proof.Chain
import proofs.«167097_j54168127537417_1_alg».proof.Proof.Spec
import Idealize.ShloMosaic.Lib.ValueIdx
import Idealize.ShloMosaic.Lib.Pipeline.Value
import Idealize.ShloMosaic.PureOps.Ideal.Laws

set_option maxRecDepth 16384

open scoped BigOperators

noncomputable section

namespace Cert.ReferenceIdeal.RefValue

open Cert.ReferenceIdeal.Read Idealize.ShloMosaic Idealize.ShloMosaic.ValueIdx

/-- An array at the ideal values. -/
abbrev Arr := Cert.Chain.Arr

/-! ## What comes from the edge list only

Both programs apply the same host operations to the edge list, so each of these stages is the chain's
function by unfolding the definitions on both sides. -/

set_option maxHeartbeats 200000 in
theorem v1_eq (x1 : Arr Cert.KernelIdeal.S2x10240000 .i32) :
    val_main_v1 (F := Ideal) x1 = Cert.Chain.src x1 := rfl

set_option maxHeartbeats 200000 in
theorem v3_eq (x1 : Arr Cert.KernelIdeal.S2x10240000 .i32) :
    val_main_v3 (F := Ideal) x1 = Cert.Chain.dst x1 := rfl

set_option maxHeartbeats 200000 in
theorem v43_eq (x1 : Arr Cert.KernelIdeal.S2x10240000 .i32) :
    val_main_v43 (F := Ideal) x1 = Cert.Chain.dstCol x1 := rfl

set_option maxHeartbeats 200000 in
theorem v83_eq (x1 : Arr Cert.KernelIdeal.S2x10240000 .i32) :
    val_main_v83 (F := Ideal) x1 = Cert.Chain.dstCol x1 := rfl

set_option maxHeartbeats 200000 in
theorem v38_eq (x1 : Arr Cert.KernelIdeal.S2x10240000 .i32) :
    val_main_v38 (F := Ideal) x1 = Cert.Chain.wrap (Cert.Chain.src x1) := rfl

set_option maxHeartbeats 200000 in
theorem v78_eq (x1 : Arr Cert.KernelIdeal.S2x10240000 .i32) :
    val_main_v78 (F := Ideal) x1 = Cert.Chain.wrap (Cert.Chain.src x1) := rfl

set_option maxHeartbeats 200000 in
theorem v10_eq (x1 : Arr Cert.KernelIdeal.S2x10240000 .i32) :
    val_main_v10 (F := Ideal) x1 = Cert.Chain.dis x1 := rfl

set_option maxHeartbeats 200000 in
theorem v31_eq (x1 : Arr Cert.KernelIdeal.S2x10240000 .i32) :
    val_main_v31 (F := Ideal) x1 = Cert.Chain.nrm x1 := rfl

set_option maxHeartbeats 200000 in
theorem v71_eq (x1 : Arr Cert.KernelIdeal.S2x10240000 .i32) :
    val_main_v71 (F := Ideal) x1 = Cert.Chain.nrm x1 := rfl

set_option maxHeartbeats 200000 in
theorem v47_eq (x1 : Arr Cert.KernelIdeal.S2x10240000 .i32) :
    val_main_v47 (F := Ideal) x1 = Cert.Chain.selfCoef x1 := rfl

set_option maxHeartbeats 200000 in
theorem v87_eq (x1 : Arr Cert.KernelIdeal.S2x10240000 .i32) :
    val_main_v87 (F := Ideal) x1 = Cert.Chain.selfCoef x1 := rfl

/-! ## Index functions in closed form -/

/-- A rank-two index with the given two coordinates is the pair. -/
theorem ix2_of {n0 n1 : Nat} (f : (⟨2, ![n0, n1]⟩ : Shape).Idx) (a : Fin n0) (b : Fin n1)
    (h0 : (f 0).val = a.val) (h1 : (f 1).val = b.val) : f = ix2 a b :=
  funext fun d => match d with
    | ⟨0, _⟩ => Fin.ext h0
    | ⟨1, _⟩ => Fin.ext h1

/-- A rank-one index with the given coordinate. -/
theorem ix1_of {n : Nat} (f : (⟨1, ![n]⟩ : Shape).Idx) (a : Fin n) (h0 : (f 0).val = a.val) : f = ix1 a :=
  funext fun d => match d with
    | ⟨0, _⟩ => Fin.ext h0

/-! ## The input layer -/

theorem v15_eq (x0 : Arr Cert.KernelIdeal.S320000x128 .f32) (x2 : Arr Cert.KernelIdeal.S128x10 .f32)
    (x3 : Arr Cert.KernelIdeal.S10 .f32) :
    val_main_v15 (F := Ideal) x0 x2 x3 = Cert.Chain.inLayer x0 x2 x3 := by
  funext i
  obtain ⟨p, q, rfl⟩ : ∃ (p : Fin 320000) (q : Fin 10), i = ix2 p q := ⟨i 0, i 1, eq_ix2 i⟩
  rw [val_main_v15_apply, val_main_v14_apply, val_main_v11_apply, val_main_v13_apply, val_main_v12_apply,
    val_main_call0_v0_apply, val_main_call0_cst_apply]
  unfold Cert.Chain.inLayer
  rw [Cert.Spec.affineRelu_apply, Ideal.maximumf_def, Ideal.addf_def, Ideal.ofBits_def, Ideal.ofBits_zero_f32]
  have hl : ∀ k : Fin 128, lidx_main_v11 (ix2 p q) k = ix2 p k := fun k => ix2_of _ _ _ rfl rfl
  have hr : ∀ k : Fin 128, ridx_main_v11 (ix2 p q) k = ix2 k q := fun k => ix2_of _ _ _ rfl rfl
  have hb : idx_main_v12 (idx_main_v13 (ix2 p q)) = ix1 q := ix1_of _ _ rfl
  rw [hb]
  simp only [hl, hr]
  rfl

/-! ## The first graph layer

The previous layer's output stays the opaque term it is; only the operations of this layer are read. -/

theorem v16_eq (x0 : Arr Cert.KernelIdeal.S320000x128 .f32) (x2 : Arr Cert.KernelIdeal.S128x10 .f32)
    (x3 : Arr Cert.KernelIdeal.S10 .f32) (x4 : Arr Cert.KernelIdeal.S10x10 .f32) :
    val_main_v16 (F := Ideal) x0 x2 x3 x4 = Cert.Chain.lin (val_main_v15 (F := Ideal) x0 x2 x3) x4 := by
  funext i
  obtain ⟨p, q, rfl⟩ : ∃ (p : Fin 320000) (q : Fin 10), i = ix2 p q := ⟨i 0, i 1, eq_ix2 i⟩
  rw [val_main_v16_apply]
  generalize val_main_v15 (F := Ideal) x0 x2 x3 = h
  unfold Cert.Chain.lin
  rw [Cert.Spec.affine_apply]
  have hl : ∀ k : Fin 10, lidx_main_v16 (ix2 p q) k = ix2 p k := fun k => ix2_of _ _ _ rfl rfl
  have hr : ∀ k : Fin 10, ridx_main_v16 (ix2 p q) k = ix2 k q := fun k => ix2_of _ _ _ rfl rfl
  simp only [hl, hr]
  exact (add_zero _).symm

set_option maxHeartbeats 200000 in
theorem v39_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32) :
    val_main_v39 (F := Ideal) x0 x1 x2 x3 x4 = Cert.Chain.gatherRows (val_main_v16 (F := Ideal) x0 x2 x3 x4) x1 := by
  unfold val_main_v39
  rw [v38_eq]
  rfl

theorem v41_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32) :
    val_main_v41 (F := Ideal) x0 x1 x2 x3 x4 = Cert.Chain.msgs (val_main_v16 (F := Ideal) x0 x2 x3 x4) x1 := by
  funext i
  obtain ⟨p, q, rfl⟩ : ∃ (p : Fin 10240000) (q : Fin 10), i = ix2 p q := ⟨i 0, i 1, eq_ix2 i⟩
  rw [val_main_v41_apply, val_main_v40_apply, val_main_v32_apply, v31_eq, v39_eq]
  generalize val_main_v16 (F := Ideal) x0 x2 x3 x4 = y
  unfold Cert.Chain.msgs
  rw [Cert.Spec.scaleRows_apply, Ideal.mulf_def]
  have hn : idx_main_v32 (idx_main_v40 (ix2 p q)) = ix1 p := ix1_of _ _ rfl
  rw [hn]
  rfl

set_option maxHeartbeats 200000 in
theorem v44_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32) :
    val_main_v44 (F := Ideal) x0 x1 x2 x3 x4 = Cert.Chain.scatterCols (val_main_v41 (F := Ideal) x0 x1 x2 x3 x4) x1 := by
  unfold val_main_v44
  rw [v43_eq]
  rfl

theorem v55_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) :
    val_main_v55 (F := Ideal) x0 x1 x2 x3 x4 x5 = Cert.Chain.layer (val_main_v15 (F := Ideal) x0 x2 x3) x4 x5 x1 := by
  funext i
  obtain ⟨p, q, rfl⟩ : ∃ (p : Fin 320000) (q : Fin 10), i = ix2 p q := ⟨i 0, i 1, eq_ix2 i⟩
  rw [val_main_v55_apply, val_main_v54_apply, val_main_v51_apply, val_main_v50_apply, val_main_v49_apply,
    val_main_v48_apply, val_main_v53_apply, val_main_v52_apply, val_main_call1_v0_apply, val_main_call1_cst_apply,
    v47_eq, v44_eq, v41_eq, v16_eq]
  generalize val_main_v15 (F := Ideal) x0 x2 x3 = h
  unfold Cert.Chain.layer
  rw [Cert.Spec.mixRelu_apply, Ideal.maximumf_def, Ideal.addf_def, Ideal.addf_def, Ideal.mulf_def, Ideal.ofBits_def,
    Ideal.ofBits_zero_f32]
  have hs : idx_main_v48 (idx_main_v49 (ix2 p q)) = ix1 p := ix1_of _ _ rfl
  have hb : idx_main_v52 (idx_main_v53 (ix2 p q)) = ix1 q := ix1_of _ _ rfl
  rw [hs, hb]
  rfl

/-! ## The second graph layer: the same operations, on the first layer's output -/

theorem v56_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) (x6 : Arr Cert.KernelIdeal.S10x10 .f32) :
    val_main_v56 (F := Ideal) x0 x1 x2 x3 x4 x5 x6 = Cert.Chain.lin (val_main_v55 (F := Ideal) x0 x1 x2 x3 x4 x5) x6 := by
  funext i
  obtain ⟨p, q, rfl⟩ : ∃ (p : Fin 320000) (q : Fin 10), i = ix2 p q := ⟨i 0, i 1, eq_ix2 i⟩
  rw [val_main_v56_apply]
  generalize val_main_v55 (F := Ideal) x0 x1 x2 x3 x4 x5 = h
  unfold Cert.Chain.lin
  rw [Cert.Spec.affine_apply]
  have hl : ∀ k : Fin 10, lidx_main_v56 (ix2 p q) k = ix2 p k := fun k => ix2_of _ _ _ rfl rfl
  have hr : ∀ k : Fin 10, ridx_main_v56 (ix2 p q) k = ix2 k q := fun k => ix2_of _ _ _ rfl rfl
  simp only [hl, hr]
  exact (add_zero _).symm

set_option maxHeartbeats 200000 in
theorem v79_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) (x6 : Arr Cert.KernelIdeal.S10x10 .f32) :
    val_main_v79 (F := Ideal) x0 x1 x2 x3 x4 x5 x6 = Cert.Chain.gatherRows (val_main_v56 (F := Ideal) x0 x1 x2 x3 x4 x5 x6) x1 := by
  unfold val_main_v79
  rw [v78_eq]
  rfl

theorem v81_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) (x6 : Arr Cert.KernelIdeal.S10x10 .f32) :
    val_main_v81 (F := Ideal) x0 x1 x2 x3 x4 x5 x6 = Cert.Chain.msgs (val_main_v56 (F := Ideal) x0 x1 x2 x3 x4 x5 x6) x1 := by
  funext i
  obtain ⟨p, q, rfl⟩ : ∃ (p : Fin 10240000) (q : Fin 10), i = ix2 p q := ⟨i 0, i 1, eq_ix2 i⟩
  rw [val_main_v81_apply, val_main_v80_apply, val_main_v72_apply, v71_eq, v79_eq]
  generalize val_main_v56 (F := Ideal) x0 x1 x2 x3 x4 x5 x6 = y
  unfold Cert.Chain.msgs
  rw [Cert.Spec.scaleRows_apply, Ideal.mulf_def]
  have hn : idx_main_v72 (idx_main_v80 (ix2 p q)) = ix1 p := ix1_of _ _ rfl
  rw [hn]
  rfl

set_option maxHeartbeats 200000 in
theorem v84_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) (x6 : Arr Cert.KernelIdeal.S10x10 .f32) :
    val_main_v84 (F := Ideal) x0 x1 x2 x3 x4 x5 x6 = Cert.Chain.scatterCols (val_main_v81 (F := Ideal) x0 x1 x2 x3 x4 x5 x6) x1 := by
  unfold val_main_v84
  rw [v83_eq]
  rfl

theorem v95_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) (x6 : Arr Cert.KernelIdeal.S10x10 .f32) (x7 : Arr Cert.KernelIdeal.S10 .f32) :
    val_main_v95 (F := Ideal) x0 x1 x2 x3 x4 x5 x6 x7 = Cert.Chain.layer (val_main_v55 (F := Ideal) x0 x1 x2 x3 x4 x5) x6 x7 x1 := by
  funext i
  obtain ⟨p, q, rfl⟩ : ∃ (p : Fin 320000) (q : Fin 10), i = ix2 p q := ⟨i 0, i 1, eq_ix2 i⟩
  rw [val_main_v95_apply, val_main_v94_apply, val_main_v91_apply, val_main_v90_apply, val_main_v89_apply,
    val_main_v88_apply, val_main_v93_apply, val_main_v92_apply, val_main_call2_v0_apply, val_main_call2_cst_apply,
    v87_eq, v84_eq, v81_eq, v56_eq]
  generalize val_main_v55 (F := Ideal) x0 x1 x2 x3 x4 x5 = h
  unfold Cert.Chain.layer
  rw [Cert.Spec.mixRelu_apply, Ideal.maximumf_def, Ideal.addf_def, Ideal.addf_def, Ideal.mulf_def, Ideal.ofBits_def,
    Ideal.ofBits_zero_f32]
  have hs : idx_main_v88 (idx_main_v89 (ix2 p q)) = ix1 p := ix1_of _ _ rfl
  have hb : idx_main_v92 (idx_main_v93 (ix2 p q)) = ix1 q := ix1_of _ _ rfl
  rw [hs, hb]
  rfl

/-! ## The output layer and the whole network -/

theorem v99_eq (x0 : Arr Cert.KernelIdeal.S320000x128 .f32) (x1 : Arr Cert.KernelIdeal.S2x10240000 .i32)
    (x2 : Arr Cert.KernelIdeal.S128x10 .f32) (x3 : Arr Cert.KernelIdeal.S10 .f32) (x4 : Arr Cert.KernelIdeal.S10x10 .f32)
    (x5 : Arr Cert.KernelIdeal.S10 .f32) (x6 : Arr Cert.KernelIdeal.S10x10 .f32) (x7 : Arr Cert.KernelIdeal.S10 .f32)
    (x8 : Arr Cert.KernelIdeal.S10x1 .f32) (x9 : Arr Cert.KernelIdeal.S1 .f32) :
    val_main_v99 (F := Ideal) x0 x1 x2 x3 x4 x5 x6 x7 x8 x9 = Cert.Chain.outLayer (val_main_v95 (F := Ideal) x0 x1 x2 x3 x4 x5 x6 x7) x8 x9 := by
  funext i
  obtain ⟨p, q, rfl⟩ : ∃ (p : Fin 320000) (q : Fin 1), i = ix2 p q := ⟨i 0, i 1, eq_ix2 i⟩
  rw [val_main_v99_apply, val_main_v96_apply, val_main_v98_apply, val_main_v97_apply]
  generalize val_main_v95 (F := Ideal) x0 x1 x2 x3 x4 x5 x6 x7 = h
  unfold Cert.Chain.outLayer
  rw [Cert.Spec.affine_apply, Ideal.addf_def]
  have hl : ∀ k : Fin 10, lidx_main_v96 (ix2 p q) k = ix2 p k := fun k => ix2_of _ _ _ rfl rfl
  have hr : ∀ k : Fin 10, ridx_main_v96 (ix2 p q) k = ix2 k q := fun k => ix2_of _ _ _ rfl rfl
  have hb : idx_main_v97 (idx_main_v98 (ix2 p q)) = ix1 q :=
    ix1_of _ _ (by have := q.isLt; show 0 = q.val; omega)
  rw [hb]
  simp only [hl, hr]
  rfl

/-- The reference program's result is the network of the chain. -/
theorem net_eq (x0 : Cert.Chain.Arr Cert.KernelIdeal.S320000x128 .f32) (x1 : Cert.Chain.Arr Cert.KernelIdeal.S2x10240000 .i32) (x2 : Cert.Chain.Arr Cert.KernelIdeal.S128x10 .f32) (x3 : Cert.Chain.Arr Cert.KernelIdeal.S10 .f32) (x4 : Cert.Chain.Arr Cert.KernelIdeal.S10x10 .f32) (x5 : Cert.Chain.Arr Cert.KernelIdeal.S10 .f32) (x6 : Cert.Chain.Arr Cert.KernelIdeal.S10x10 .f32) (x7 : Cert.Chain.Arr Cert.KernelIdeal.S10 .f32) (x8 : Cert.Chain.Arr Cert.KernelIdeal.S10x1 .f32) (x9 : Cert.Chain.Arr Cert.KernelIdeal.S1 .f32) :
    Cert.ReferenceIdeal.Read.val_main_v100 (F := Ideal) x0 x1 x2 x3 x4 x5 x6 x7 x8 x9 = Cert.Chain.net x0 x1 x2 x3 x4 x5 x6 x7 x8 x9 := by
  unfold val_main_v100 Cert.Chain.net
  rw [v99_eq, v95_eq, v55_eq, v15_eq]

end Cert.ReferenceIdeal.RefValue

end
-- ==== Proof.lean ====
/-
  The claim: the Pallas program and the plain reference compute the same graph network.

  Both programs take node features x, an edge list e (sources and destinations), and the weights and biases of an input
  layer, two graph layers and an output layer. From e both compute, with the same host operations, the inverse square
  root `dis` of each node's degree (edges ending in it, plus two for the weighted self loop), the per-edge weight
  dis(source) · dis(destination) and the per-node self-loop weight 2 · dis · dis. A graph layer maps features h to the
  positive part of  S(nrm ⊙ G(h w)) + selfCoef ⊙ (h w) + b,  G the gather of rows at the edges' sources and S the
  scatter-add into the edges' destinations. The Pallas program does the dense pieces — the four products with weights
  (with the bias and, for the input layer, the positive part), the scaling of the gathered rows, the final mix — in
  eight tiled launches and leaves G, S and the degree computation to the host; the reference does everything on the host.

  At the ideal values (extended reals, exact operations, a change of float format the identity) the two agree exactly,
  for every input: a tiled launch computes, block of rows by block of rows, the same entries as the whole-array
  expression; a product on the matrix unit into a zero accumulator is the same sum as the host's; the zero bias that the
  layers' products carry adds nothing; and the gathers and scatters are the same operations applied to equal arrays,
  never opened. No algebraic law that could fail at an infinity is used, so the precondition (finite inputs) is not
  needed for the value and is never opened.

  * The three frames: the generated frame certificates for the two kernel programs; the reference's is its generated run
    with the result dropped.
  * preserves: the idealization pass rewrote nothing, the conjunct is `True`.
  * algebraic: the kernel program's run names its result buffer at the last boundary's contents (Proof/ValueRun.lean),
    which Proof/Thread.lean reads back as `Cert.Chain.net` of the arguments over the per-launch closed forms
    (Proof/Region0 … Region7, over Proof/Spec.lean); the reference's generated run ends at its composed term, which
    Proof/RefChain.lean shows to be the same `Cert.Chain.net`.
-/
import proofs.«167097_j54168127537417_1_alg».proof.Defs
import proofs.«167097_j54168127537417_1_alg».proof.Proof.Gen.Kernel
import proofs.«167097_j54168127537417_1_alg».proof.Proof.Gen.Kernel.Skeleton
import proofs.«167097_j54168127537417_1_alg».proof.Proof.Gen.Kernel.Launch
import proofs.«167097_j54168127537417_1_alg».proof.Proof.Gen.Kernel.Points
import proofs.«167097_j54168127537417_1_alg».proof.Proof.Gen.Kernel.Frame
import proofs.«167097_j54168127537417_1_alg».proof.Proof.Gen.KernelIdeal
import proofs.«167097_j54168127537417_1_alg».proof.Proof.Gen.KernelIdeal.Skeleton
import proofs.«167097_j54168127537417_1_alg».proof.Proof.Gen.KernelIdeal.Launch
import proofs.«167097_j54168127537417_1_alg».proof.Proof.Gen.KernelIdeal.Points
import proofs.«167097_j54168127537417_1_alg».proof.Proof.Gen.KernelIdeal.Frame
import proofs.«167097_j54168127537417_1_alg».proof.Proof.Gen.ReferenceIdeal
import proofs.«167097_j54168127537417_1_alg».proof.Proof.Gen.ReferenceIdeal.Run
import proofs.«167097_j54168127537417_1_alg».proof.Proof.Gen.ReferenceIdeal.Read
import proofs.«167097_j54168127537417_1_alg».proof.Proof.Gen.Pre_finite_inputs
import proofs.«167097_j54168127537417_1_alg».proof.Proof.ValueRun
import proofs.«167097_j54168127537417_1_alg».proof.Proof.Thread
import proofs.«167097_j54168127537417_1_alg».proof.Proof.RefChain
import Idealize.ShloMosaic.Adequacy
import Idealize.ShloMosaic.Init

noncomputable section

namespace Cert.Proof

open Idealize.ShloMosaic Idealize.SL.Sem

/-- The printed kernel program runs and leaves its arguments as launched: the generated frame certificate. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference runs and leaves its arguments as launched: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the network of those arguments in their
    result buffers: the kernel program by its threaded run, the reference by its composed term. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Thread.result m ρ c), (h c).2⟩)
    (Cert.KernelIdeal.ValueRun.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v100_eq, e0, e1, e2, e3, e4, e5, e6, e7, e8, e9]
  exact Cert.ReferenceIdeal.RefValue.net_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
